-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64x2048x512 : Shape := ⟨3, ![64, 2048, 512]⟩
abbrev S64x2048 : Shape := ⟨2, ![64, 2048]⟩
abbrev S64 : Shape := ⟨1, ![64]⟩
abbrev S512x512 : Shape := ⟨2, ![512, 512]⟩
abbrev S512 : Shape := ⟨1, ![512]⟩
abbrev S1x512 : Shape := ⟨2, ![1, 512]⟩
abbrev S512x1 : Shape := ⟨2, ![512, 1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S64x2048x512 : S_.BroadcastsInDim S64x2048x512 (![] : Fin 0 → Fin S64x2048x512.rank)
  reducesTo_S64x2048x512_S_d0_1_2 : S64x2048x512.ReducesTo [0, 1, 2] S_
  bcast_S_S64x2048 : S_.BroadcastsInDim S64x2048 (![] : Fin 0 → Fin S64x2048.rank)
  reducesTo_S64x2048_S_d0_1 : S64x2048.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S512x1 : S_.BroadcastsInDim S512x1 (![] : Fin 0 → Fin S512x1.rank)
  reducesTo_S512x1_S_d0_1 : S512x1.ReducesTo [0, 1] S_

variable [Facts]

def fn_part2 {F : FTy → Type} [FloatOps F] (main_arg8 : FVec F S1x512 .f32) (main_arg9 : FVec F S512x1 .f32) (main_v33 : IVec S_ 1) : IVec S_ 1 :=
  let main_v34 : FVec F S1x512 .f32 := Host.absf main_arg8
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S512x1 .f32 := Host.absf main_arg9
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  main_v43

def fn_part1 {F : FTy → Type} [FloatOps F] (main_arg5 : FVec F S512x512 .f32) (main_arg6 : FVec F S512 .f32) (main_arg7 : FVec F S512x512 .f32) (main_arg8 : FVec F S1x512 .f32) (main_arg9 : FVec F S512x1 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_v33

def fn {F : FTy → Type} [FloatOps F] (main_arg0 : FVec F S64x512 .f32) (main_arg1 : FVec F S64x2048x512 .f32) (main_arg2 : FVec F S64x2048x512 .f32) (main_arg3 : FVec F S64x2048 .f32) (main_arg4 : IVec S64 32) (main_arg5 : FVec F S512x512 .f32) (main_arg6 : FVec F S512 .f32) (main_arg7 : FVec F S512x512 .f32) (main_arg8 : FVec F S1x512 .f32) (main_arg9 : FVec F S512x1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x2048x512 .f32 := Host.absf main_arg1
  let main_cst_0 : FVec F S_ .f32 := constant S_ .f32 0x7F800000#32
  let main_v5 : FVec F S64x2048x512 .f32 := broadcastInDim S64x2048x512 ![] bcast_S_S64x2048x512 main_cst_0
  let main_v6 : IVec S64x2048x512 1 := cmpf .olt main_v4 main_v5
  let main_c_1 : IVec S_ 1 := constantI S_ 1 1#1
  let main_v7 : IVec S_ 1 := (fun x v => Host.reduce IntOp.andi x v reducesTo_S64x2048x512_S_d0_1_2 h_S_) main_v6 main_c_1
  let main_v8 : IVec S_ 1 := andi main_v3 main_v7
  let main_v9 : FVec F S64x2048x512 .f32 := Host.absf main_arg2
  let main_cst_2 : FVec F S_ .f32 := constant S_ .f32 0x7F800000#32
  let main_v10 : FVec F S64x2048x512 .f32 := broadcastInDim S64x2048x512 ![] bcast_S_S64x2048x512 main_cst_2
  let main_v11 : IVec S64x2048x512 1 := cmpf .olt main_v9 main_v10
  let main_c_3 : IVec S_ 1 := constantI S_ 1 1#1
  let main_v12 : IVec S_ 1 := (fun x v => Host.reduce IntOp.andi x v reducesTo_S64x2048x512_S_d0_1_2 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg5 main_arg6 main_arg7 main_arg8 main_arg9 main_v13 main_v16
-- ==== Kernel.lean ====
abbrev S64x512 : Shape := ⟨2, ![64, 512]⟩
abbrev S64x2048x512 : Shape := ⟨3, ![64, 2048, 512]⟩
abbrev S64x2048 : Shape := ⟨2, ![64, 2048]⟩
abbrev S64 : Shape := ⟨1, ![64]⟩
abbrev S512x512 : Shape := ⟨2, ![512, 512]⟩
abbrev S512 : Shape := ⟨1, ![512]⟩
abbrev S1x512 : Shape := ⟨2, ![1, 512]⟩
abbrev S512x1 : Shape := ⟨2, ![512, 1]⟩
abbrev S64x1x512 : Shape := ⟨3, ![64, 1, 512]⟩
abbrev S64x1x2048 : Shape := ⟨3, ![64, 1, 2048]⟩
abbrev S1x2048x512 : Shape := ⟨3, ![1, 2048, 512]⟩
abbrev S1x1x2048 : Shape := ⟨3, ![1, 1, 2048]⟩
abbrev S1x1x512 : Shape := ⟨3, ![1, 1, 512]⟩
abbrev S2048x512 : Shape := ⟨2, ![2048, 512]⟩
abbrev S1x2048 : Shape := ⟨2, ![1, 2048]⟩
abbrev S2048x1 : Shape := ⟨2, ![2048, 1]⟩
abbrev S1 : Shape := ⟨1, ![1]⟩
abbrev S1x1 : Shape := ⟨2, ![1, 1]⟩

abbrev nBuf : Space → Nat
  | .hbm => 23
  | .vmem => 15
  | .smem => 1
  | _ => 0

abbrev bufTy : (tb : Table) → Fin (tcTables nBuf tb) → BufTy
  | .hbm, ⟨0, _⟩ => ⟨S64x512, .f32⟩
  | .hbm, ⟨1, _⟩ => ⟨S64x2048x512, .f32⟩
  | .hbm, ⟨2, _⟩ => ⟨S64x2048x512, .f32⟩
  | .hbm, ⟨3, _⟩ => ⟨S64x2048, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S1x512, .f32⟩
  | .hbm, ⟨8, _⟩ => ⟨S512x1, .f32⟩
  | .hbm, ⟨9, _⟩ => ⟨S64x512, .f32⟩
  | .hbm, ⟨10, _⟩ => ⟨S1x512, .f32⟩
  | .hbm, ⟨11, _⟩ => ⟨S64x512, .f32⟩
  | .hbm, ⟨12, _⟩ => ⟨S64x512, .f32⟩
  | .hbm, ⟨13, _⟩ => ⟨S64x1x512, .f32⟩
  | .hbm, ⟨14, _⟩ => ⟨S64x1x2048, .f32⟩
  | .hbm, ⟨15, _⟩ => ⟨S512, .f32⟩
  | .hbm, ⟨16, _⟩ => ⟨S512x512, .bf16⟩
  | .hbm, ⟨17, _⟩ => ⟨S512, .f32⟩
  | .hbm, ⟨18, _⟩ => ⟨S1x512, .f32⟩
  | .hbm, ⟨19, _⟩ => ⟨S1x512, .bf16⟩
  | .hbm, ⟨20, _⟩ => ⟨S64x1x512, .f32⟩
  | .hbm, ⟨21, _⟩ => ⟨S64x1x2048, .f32⟩
  | .hbm, ⟨22, _⟩ => ⟨S64x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1x2048, .f32⟩
  | .local _ .vmem, ⟨3, _⟩ => ⟨S1x1x2048, .f32⟩
  | .local _ .vmem, ⟨4, _⟩ => ⟨S1x1x512, .f32⟩
  | .local _ .vmem, ⟨5, _⟩ => ⟨S1x1x512, .f32⟩
  | .local _ .vmem, ⟨6, _⟩ => ⟨S512x512, .bf16⟩
  | .local _ .vmem, ⟨7, _⟩ => ⟨S1x512, .bf16⟩
  | .local _ .vmem, ⟨8, _⟩ => ⟨S512, .f32⟩
  | .local _ .vmem, ⟨9, _⟩ => ⟨S1x2048x512, .f32⟩
  | .local _ .vmem, ⟨10, _⟩ => ⟨S1x2048x512, .f32⟩
  | .local _ .vmem, ⟨11, _⟩ => ⟨S1x1x512, .f32⟩
  | .local _ .vmem, ⟨12, _⟩ => ⟨S1x1x512, .f32⟩
  | .local _ .vmem, ⟨13, _⟩ => ⟨S1x1x2048, .f32⟩
  | .local _ .vmem, ⟨14, _⟩ => ⟨S1x1x2048, .f32⟩
  | .local _ .smem, ⟨0, _⟩ => ⟨S64, .i32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v26 : Index := Scalar.indexCast arg0
  ![v26.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x512_S64x1x512_0_2 : S64x512.BroadcastsInDim S64x1x512 (![0, 2] : Fin 2 → Fin S64x1x512.rank)
  bcast_S64x2048_S64x1x2048_0_2 : S64x2048.BroadcastsInDim S64x1x2048 (![0, 2] : Fin 2 → Fin S64x1x2048.rank)
  shapeCasts_S1x512_S512 : S1x512.ShapeCasts S512
  bitsLt_bf16_f32 : FTy.bits .bf16 < FTy.bits .f32
  shapeCasts_S512x1_S512 : S512x1.ShapeCasts S512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S512 : S512.ShapeCasts S512
  transposes_S1x2048_p1_0_S2048x1 : S1x2048.Transposes [1, 0] S2048x1
  broadcasts_S1x512_S2048x512 : S1x512.Broadcasts S2048x512
  shapeCasts_S512_S1x512 : S512.ShapeCasts S1x512
  broadcasts_S2048x1_S2048x512 : S2048x1.Broadcasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S1x2048_d1_w32 : S1x2048.Iotas .tc 32 [1]
  numel1_S1 : S1.numel = 1
  reduces_S1x2048_S1 : S1x2048.Reduces [1] S1
  shapeCasts_S1_S1x1 : S1.ShapeCasts S1x1
  broadcasts_S1x1_S1x2048 : S1x1.Broadcasts S1x2048
  shapeCasts_S1x2048_S1x1x2048 : S1x2048.ShapeCasts S1x1x2048
  broadcasts_S1x1_S1x512 : S1x1.Broadcasts S1x512
  shapeCasts_S1x512_S1x1x512 : S1x512.ShapeCasts S1x1x512
  shapeCasts_S64x1x512_S64x512 : S64x1x512.ShapeCasts S64x512
  dot_S64x512_S512x512_S64x512_1_0_0_1_n_n_wf : DotDims.WF S64x512 S512x512 S64x512 [1] [0] [0] [1] [] []
  dot_S2048x512_S512x512_S2048x512_1_0_0_1_n_n_wf : DotDims.WF S2048x512 S512x512 S2048x512 [1] [0] [0] [1] [] []
  dot_S1x512_S2048x512_S1x2048_1_1_0_0_n_n_wf : DotDims.WF S1x512 S2048x512 S1x2048 [1] [1] [0] [0] [] []
  dot_S1x2048_S2048x512_S1x512_1_0_0_1_n_n_wf : DotDims.WF S1x2048 S2048x512 S1x512 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S64x2048x512.size a
  hwx0_0 : ∀ i : grid0.Coords, EltTy.bits .f32 = 32 ∨ (Rect.block (s := S64x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S64x1x2048.size a
  hwx0_1 : ∀ i : grid0.Coords, EltTy.bits .f32 = 32 ∨ (Rect.block (s := S64x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S64x1x512.size a
  hwx0_2 : ∀ i : grid0.Coords, EltTy.bits .f32 = 32 ∨ (Rect.block (s := S64x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .bf16 = 32 ∨ (Rect.block (s := S1x512) S1x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x512.size a ≤ S64x2048x512.size a
  hwx0_6 : ∀ i : grid0.Coords, EltTy.bits .f32 = 32 ∨ (Rect.block (s := S64x2048x512) S1x2048x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x512.size a ≤ S64x1x512.size a
  hwx0_7 : ∀ i : grid0.Coords, EltTy.bits .f32 = 32 ∨ (Rect.block (s := S64x1x512) S1x1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x2048.size a ≤ S64x1x2048.size a
  hwx0_8 : ∀ i : grid0.Coords, EltTy.bits .f32 = 32 ∨ (Rect.block (s := S64x1x2048) S1x1x2048.size (cc0_transform_8 i) (hinb0_8 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1x512_S2048x512_S1x2048_1_1_0_0_n_n : DotDims S1x512 S2048x512 S1x2048 where
  lhsContracting := [1]
  rhsContracting := [1]
  lhsNonContracting := [0]
  rhsNonContracting := [0]
  lhsBatch := []
  rhsBatch := []
  wf := dot_S1x512_S2048x512_S1x2048_1_1_0_0_n_n_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf

abbrev spec0_0 : Pipeline.WinSpec sig grid0.rank :=
  Pipeline.WinSpec.ofSpec (Memref.whole main_arg1) S1x2048x512.size reads0_0 false false 2 stage0_0 sem0_0 nbuf0_0 hstage0_0

abbrev spec0_1 : Pipeline.WinSpec sig grid0.rank :=
  Pipeline.WinSpec.ofSpec (Memref.whole main_v5) S1x1x2048.size reads0_1 false false 2 stage0_1 sem0_1 nbuf0_1 hstage0_1

abbrev spec0_2 : Pipeline.WinSpec sig grid0.rank :=
  Pipeline.WinSpec.ofSpec (Memref.whole main_v4) S1x1x512.size reads0_2 false false 2 stage0_2 sem0_2 nbuf0_2 hstage0_2

abbrev spec0_3 : Pipeline.WinSpec sig grid0.rank :=
  Pipeline.WinSpec.ofSpec (Memref.whole main_v7) S512x512.size reads0_3 false true 1 stage0_3 sem0_3 nbuf0_3 hstage0_3

abbrev spec0_4 : Pipeline.WinSpec sig grid0.rank :=
  Pipeline.WinSpec.ofSpec (Memref.whole main_v10) S1x512.size reads0_4 false true 1 stage0_4 sem0_4 nbuf0_4 hstage0_4

abbrev spec0_5 : Pipeline.WinSpec sig grid0.rank :=
  Pipeline.WinSpec.ofSpec (Memref.whole main_v6) S512.size reads0_5 false true 1 stage0_5 sem0_5 nbuf0_5 hstage0_5

abbrev spec0_6 : Pipeline.WinSpec sig grid0.rank :=
  Pipeline.WinSpec.ofSpec (Memref.whole main_arg2) S1x2048x512.size reads0_6 false false 2 stage0_6 sem0_6 nbuf0_6 hstage0_6

abbrev spec0_7 : Pipeline.WinSpec sig grid0.rank :=
  Pipeline.WinSpec.ofSpec (Memref.whole main_v11_0) S1x1x512.size reads0_7 true false 2 stage0_7 sem0_7 nbuf0_7 hstage0_7

abbrev spec0_8 : Pipeline.WinSpec sig grid0.rank :=
  Pipeline.WinSpec.ofSpec (Memref.whole main_v11_1) S1x1x2048.size reads0_8 true false 2 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | ⟨_ + 9, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | ⟨_ + 9, h⟩ => absurd h (Nat.not_lt.2 (Nat.le_add_left _ _))

class Facts : Prop extends Facts₀ where
  harr0 : ∀ w, (spec0 w).arr.IsWhole

variable [Facts]
-- ==== ReferenceIdeal.lean ====
abbrev S64x512 : Shape := ⟨2, ![64, 512]⟩
abbrev S64x2048x512 : Shape := ⟨3, ![64, 2048, 512]⟩
abbrev S64x2048 : Shape := ⟨2, ![64, 2048]⟩
abbrev S64 : Shape := ⟨1, ![64]⟩
abbrev S512x512 : Shape := ⟨2, ![512, 512]⟩
abbrev S512 : Shape := ⟨1, ![512]⟩
abbrev S1x512 : Shape := ⟨2, ![1, 512]⟩
abbrev S512x1 : Shape := ⟨2, ![512, 1]⟩
abbrev S64x2048x1 : Shape := ⟨3, ![64, 2048, 1]⟩
abbrev S1x1x512 : Shape := ⟨3, ![1, 1, 512]⟩
abbrev S64x1x512 : Shape := ⟨3, ![64, 1, 512]⟩
abbrev S1x64x2048 : Shape := ⟨3, ![1, 64, 2048]⟩
abbrev S64x1x2048 : Shape := ⟨3, ![64, 1, 2048]⟩
abbrev S2048 : Shape := ⟨1, ![2048]⟩
abbrev S1x1x2048 : Shape := ⟨3, ![1, 1, 2048]⟩
abbrev S64x1x1 : Shape := ⟨3, ![64, 1, 1]⟩
abbrev S_ : Shape := ⟨0, ![]⟩
abbrev S64x1 : Shape := ⟨2, ![64, 1]⟩

abbrev nBuf : Space → Nat
  | .hbm => 57
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S64x2048x512, .f32⟩
  | .hbm, ⟨2, _⟩ => ⟨S64x2048x512, .f32⟩
  | .hbm, ⟨3, _⟩ => ⟨S64x2048, .f32⟩
  | .hbm, ⟨4, _⟩ => ⟨S64, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S1x512, .f32⟩
  | .hbm, ⟨9, _⟩ => ⟨S512x1, .f32⟩
  | .hbm, ⟨10, _⟩ => ⟨S64x512, .f32⟩
  | .hbm, ⟨11, _⟩ => ⟨S1x512, .f32⟩
  | .hbm, ⟨12, _⟩ => ⟨S64x512, .f32⟩
  | .hbm, ⟨13, _⟩ => ⟨S64x512, .f32⟩
  | .hbm, ⟨14, _⟩ => ⟨S64x2048x512, .f32⟩
  | .hbm, ⟨15, _⟩ => ⟨S64x2048x1, .f32⟩
  | .hbm, ⟨16, _⟩ => ⟨S512, .f32⟩
  | .hbm, ⟨17, _⟩ => ⟨S1x1x512, .f32⟩
  | .hbm, ⟨18, _⟩ => ⟨S64x2048x512, .f32⟩
  | .hbm, ⟨19, _⟩ => ⟨S64x2048x512, .f32⟩
  | .hbm, ⟨20, _⟩ => ⟨S64x2048x512, .f32⟩
  | .hbm, ⟨21, _⟩ => ⟨S64x1x512, .f32⟩
  | .hbm, ⟨22, _⟩ => ⟨S64x2048x512, .f32⟩
  | .hbm, ⟨23, _⟩ => ⟨S64x2048x512, .f32⟩
  | .hbm, ⟨24, _⟩ => ⟨S64x2048x512, .f32⟩
  | .hbm, ⟨25, _⟩ => ⟨S64x2048x512, .f32⟩
  | .hbm, ⟨26, _⟩ => ⟨S1x64x2048, .f32⟩
  | .hbm, ⟨27, _⟩ => ⟨S64x1x2048, .f32⟩
  | .hbm, ⟨28, _⟩ => ⟨S2048, .i32⟩
  | .hbm, ⟨29, _⟩ => ⟨S1x1x2048, .i32⟩
  | .hbm, ⟨30, _⟩ => ⟨S64x1x1, .i32⟩
  | .hbm, ⟨31, _⟩ => ⟨S64x1x2048, .i32⟩
  | .hbm, ⟨32, _⟩ => ⟨S64x1x2048, .i32⟩
  | .hbm, ⟨33, _⟩ => ⟨S64x1x2048, .i1⟩
  | .hbm, ⟨34, _⟩ => ⟨S_, .f32⟩
  | .hbm, ⟨35, _⟩ => ⟨S_, .f32⟩
  | .hbm, ⟨36, _⟩ => ⟨S64x1x2048, .f32⟩
  | .hbm, ⟨37, _⟩ => ⟨S64x1x2048, .f32⟩
  | .hbm, ⟨38, _⟩ => ⟨S_, .f32⟩
  | .hbm, ⟨39, _⟩ => ⟨S64x1x2048, .f32⟩
  | .hbm, ⟨40, _⟩ => ⟨S64x1x2048, .f32⟩
  | .hbm, ⟨41, _⟩ => ⟨S_, .f32⟩
  | .hbm, ⟨42, _⟩ => ⟨S64x1, .f32⟩
  | .hbm, ⟨43, _⟩ => ⟨S_, .f32⟩
  | .hbm, ⟨44, _⟩ => ⟨S64x1, .f32⟩
  | .hbm, ⟨45, _⟩ => ⟨S64x1, .f32⟩
  | .hbm, ⟨46, _⟩ => ⟨S64x1x1, .f32⟩
  | .hbm, ⟨47, _⟩ => ⟨S64x1x2048, .f32⟩
  | .hbm, ⟨48, _⟩ => ⟨S64x1x2048, .f32⟩
  | .hbm, ⟨49, _⟩ => ⟨S64x1x2048, .f32⟩
  | .hbm, ⟨50, _⟩ => ⟨S_, .f32⟩
  | .hbm, ⟨51, _⟩ => ⟨S64x1, .f32⟩
  | .hbm, ⟨52, _⟩ => ⟨S64x1x1, .f32⟩
  | .hbm, ⟨53, _⟩ => ⟨S64x1x2048, .f32⟩
  | .hbm, ⟨54, _⟩ => ⟨S64x1x2048, .f32⟩
  | .hbm, ⟨55, _⟩ => ⟨S64x1x512, .f32⟩
  | .hbm, ⟨56, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x2048_S64x2048x1_0_1 : S64x2048.BroadcastsInDim S64x2048x1 (![0, 1] : Fin 2 → Fin S64x2048x1.rank)
  shapeCasts_S1x512_S512 : S1x512.ShapeCasts S512
  bcast_S512_S1x1x512_2 : S512.BroadcastsInDim S1x1x512 (![2] : Fin 1 → Fin S1x1x512.rank)
  bcast_S64x2048x1_S64x2048x512_0_1_2 : S64x2048x1.BroadcastsInDim S64x2048x512 (![0, 1, 2] : Fin 3 → Fin S64x2048x512.rank)
  bcast_S1x1x512_S64x2048x512_0_1_2 : S1x1x512.BroadcastsInDim S64x2048x512 (![0, 1, 2] : Fin 3 → Fin S64x2048x512.rank)
  bcast_S64x512_S64x1x512_0_2 : S64x512.BroadcastsInDim S64x1x512 (![0, 2] : Fin 2 → Fin S64x1x512.rank)
  bcast_S64x1x512_S64x2048x512_0_1_2 : S64x1x512.BroadcastsInDim S64x2048x512 (![0, 1, 2] : Fin 3 → Fin S64x2048x512.rank)
  transposes_S1x64x2048_S64x1x2048_1_0_2 : S1x64x2048.Transposes [1, 0, 2] S64x1x2048
  bcast_S2048_S1x1x2048_2 : S2048.BroadcastsInDim S1x1x2048 (![2] : Fin 1 → Fin S1x1x2048.rank)
  bcast_S64_S64x1x1_0 : S64.BroadcastsInDim S64x1x1 (![0] : Fin 1 → Fin S64x1x1.rank)
  bcast_S1x1x2048_S64x1x2048_0_1_2 : S1x1x2048.BroadcastsInDim S64x1x2048 (![0, 1, 2] : Fin 3 → Fin S64x1x2048.rank)
  bcast_S64x1x1_S64x1x2048_0_1_2 : S64x1x1.BroadcastsInDim S64x1x2048 (![0, 1, 2] : Fin 3 → Fin S64x1x2048.rank)
  bcast_S_S64x1x2048 : S_.BroadcastsInDim S64x1x2048 (![] : Fin 0 → Fin S64x1x2048.rank)
  reducesTo_S64x1x2048_S64x1_d2 : S64x1x2048.ReducesTo [2] S64x1
  h_S_ : 0 < S_.numel
  bcast_S_S64x1 : S_.BroadcastsInDim S64x1 (![] : Fin 0 → Fin S64x1.rank)
  bcast_S64x1_S64x1x1_0_1 : S64x1.BroadcastsInDim S64x1x1 (![0, 1] : Fin 2 → Fin S64x1x1.rank)
  shapeCasts_S64x1x512_S64x512 : S64x1x512.ShapeCasts S64x512
  dot_S64x512_S512x512_S64x512_1_0_0_1_n_n_wf : DotDims.WF S64x512 S512x512 S64x512 [1] [0] [0] [1] [] []
  dot_S64x2048x512_S512x512_S64x2048x512_2_0_01_1_n_n_wf : DotDims.WF S64x2048x512 S512x512 S64x2048x512 [2] [0] [0, 1] [1] [] []
  dot_S512x1_S64x2048x512_S1x64x2048_0_2_1_01_n_n_wf : DotDims.WF S512x1 S64x2048x512 S1x64x2048 [0] [2] [1] [0, 1] [] []
  dot_S64x1x2048_S64x2048x512_S64x1x512_2_1_1_2_0_0_wf : DotDims.WF S64x1x2048 S64x2048x512 S64x1x512 [2] [1] [1] [2] [0] [0]

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x2048x512_S512x512_S64x2048x512_2_0_01_1_n_n : DotDims S64x2048x512 S512x512 S64x2048x512 where
  lhsContracting := [2]
  rhsContracting := [0]
  lhsNonContracting := [0, 1]
  rhsNonContracting := [1]
  lhsBatch := []
  rhsBatch := []
  wf := dot_S64x2048x512_S512x512_S64x2048x512_2_0_01_1_n_n_wf
def dot_S512x1_S64x2048x512_S1x64x2048_0_2_1_01_n_n : DotDims S512x1 S64x2048x512 S1x64x2048 where
  lhsContracting := [0]
  rhsContracting := [2]
  lhsNonContracting := [1]
  rhsNonContracting := [0, 1]
  lhsBatch := []
  rhsBatch := []
  wf := dot_S512x1_S64x2048x512_S1x64x2048_0_2_1_01_n_n_wf
def dot_S64x1x2048_S64x2048x512_S64x1x512_2_1_1_2_0_0 : DotDims S64x1x2048 S64x2048x512 S64x1x512 where
  lhsContracting := [2]
  rhsContracting := [1]
  lhsNonContracting := [1]
  rhsNonContracting := [2]
  lhsBatch := [0]
  rhsBatch := [0]
  wf := dot_S64x1x2048_S64x2048x512_S64x1x512_2_1_1_2_0_0_wf

class Facts : Prop extends Facts₀ where

variable [Facts]
-- ==== Proof.AttnSpec.lean ====
/-
  Additive attention with a coverage term, one batch row at a time, on the extended reals.

  For a batch row: the score at key position t and feature a is (k_t · Wk)_a + q_a + cover_t · wc_a; the energy at t
  is the Wo-weighted sum over a of tanh of the score; positions at or beyond the row's key length are
  replaced by a large negative number; the softmax over t of the masked energies gives the attention
  weights, and the context is their weighted sum of the value rows.

  Two spellings of the softmax tail are compared: the plain one (divide the shifted exponentials by
  their sum, then average the values) and the guarded one (divide by the larger of the sum and 10⁻³⁰,
  and divide the averaged values after the sum). They agree as soon as the masked energies and the
  values are real numbers: the largest masked energy is then attained, its shifted exponential is 1,
  so the sum is at least 1 and the guard is idle; and division by a real number not 0 distributes over
  a finite sum of reals.
-/
import Idealize.ShloMosaic.PureOps.Ideal
import Idealize.ShloMosaic.PureOps.Ideal.Laws

noncomputable section

namespace Cert.Attn

open Idealize.ShloMosaic

/-- The large negative stand-in the mask writes (the f32 nearest to -10¹⁰), and the f32 one the masked energies are scaled by. -/
abbrev negBig : EReal := Ideal.ofBits .f32 0xD01502F9#32
abbrev one32 : EReal := Ideal.ofBits .f32 0x3F800000#32
/-- The guard under the softmax denominator: 10⁻³⁰. -/
abbrev tiny : EReal := ((1 / 1000000000000000000000000000000 : ℝ) : EReal)

/-- The additive score of one key row at feature `a`: (k · Wk)_a + q_a + cover · wc_a. -/
def score (krow : Fin 512 → EReal) (wk : Fin 512 → Fin 512 → EReal) (q : Fin 512 → EReal) (cov : EReal)
    (wc : Fin 512 → EReal) (a : Fin 512) : EReal :=
  ((∑ d : Fin 512, krow d * wk d a) + q a) + cov * wc a

/-- The energy of one key row: the Wo-weighted sum of tanh of its scores. -/
def energy (wo s : Fin 512 → EReal) : EReal := ∑ a : Fin 512, wo a * Ideal.tanh (s a)

/-- The masked, scaled energies of a batch row: positions t ≥ klen (signed) hold the stand-in. -/
def masked (e : Fin 2048 → EReal) (klen : BitVec 32) (t : Fin 2048) : EReal :=
  Scalar.select (IntOp.cmpi .sge (BitVec.ofNat 32 t.val) klen) negBig (e t) * one32

/-- The row maximum, from -∞. -/
def rowMax (x : Fin 2048 → EReal) : EReal := (Finset.univ : Finset (Fin 2048)).fold max ⊥ x
/-- The shifted exponentials and their sum. -/
def expShift (x : Fin 2048 → EReal) (t : Fin 2048) : EReal := Ideal.exp (x t - rowMax x)
def denom (x : Fin 2048 → EReal) : EReal := ∑ t : Fin 2048, expShift x t

/-- The plain softmax and the context it averages. -/
def attn (x : Fin 2048 → EReal) (t : Fin 2048) : EReal := Ideal.div (expShift x t) (denom x)
def ctx (x : Fin 2048 → EReal) (v : Fin 2048 → Fin 512 → EReal) (d : Fin 512) : EReal := ∑ t : Fin 2048, attn x t * v t d

/-- The guarded spelling: the denominator is max(sum, 10⁻³⁰), and the context is divided after its sum. -/
def attnGuard (x : Fin 2048 → EReal) (t : Fin 2048) : EReal := Ideal.div (expShift x t) (max (denom x) tiny)
def ctxGuard (x : Fin 2048 → EReal) (v : Fin 2048 → Fin 512 → EReal) (d : Fin 512) : EReal :=
  Ideal.div (∑ t : Fin 2048, expShift x t * v t d) (max (denom x) tiny)

/-- The whole map, batch by batch. -/
def rowEnergies (keys : Fin 64 → Fin 2048 → Fin 512 → EReal) (wk : Fin 512 → Fin 512 → EReal) (q : Fin 64 → Fin 512 → EReal)
    (cover : Fin 64 → Fin 2048 → EReal) (wc wo : Fin 512 → EReal) (klen : Fin 64 → BitVec 32) (b : Fin 64) : Fin 2048 → EReal :=
  masked (fun t => energy wo (score (keys b t) wk (q b) (cover b t) wc)) (klen b)

end Cert.Attn

end
-- ==== Proof.AttnSoftmax.lean ====
/-
  The guarded softmax tail agrees with the plain one on real rows.
-/
import proofs.«430874_j78606491452122_3_alg».proof.Proof.AttnSpec

noncomputable section

namespace Cert.Attn

open Idealize.ShloMosaic

/-- The coercion of the reals into the extended reals goes through finite sums. -/
private theorem coe_sum {ι : Type} (s : Finset ι) (g : ι → ℝ) :
    ∑ i ∈ s, ((g i : ℝ) : EReal) = ((∑ i ∈ s, g i : ℝ) : EReal) := by
  classical
  refine Finset.induction_on s ?_ ?_
  · simp
  · intro a s ha ih
    rw [Finset.sum_insert ha, Finset.sum_insert ha, ih, EReal.coe_add]

/-- tanh is real at every extended real: -1 at -∞, 1 at +∞, the real tanh in between. -/
private theorem tanh_real (x : EReal) : ∃ r : ℝ, Ideal.tanh x = (r : EReal) := by
  induction x using EReal.rec with
  | bot => exact ⟨-1, by simp⟩
  | coe r => exact ⟨Real.tanh r, rfl⟩
  | top => exact ⟨1, by simp⟩

/-- A Wo-weighted sum of tanh values is a real number as soon as the weights are: tanh is real at every extended real. -/
theorem energy_real (wo s : Fin 512 → EReal) (hwo : ∀ a, ∃ r : ℝ, wo a = (r : EReal)) : ∃ r : ℝ, energy wo s = (r : EReal) := by
  choose w hw using hwo
  choose th hth using tanh_real
  refine ⟨∑ a : Fin 512, w a * th (s a), ?_⟩
  unfold energy
  rw [← coe_sum]
  refine Finset.sum_congr rfl (fun a _ => ?_)
  rw [hw a, hth (s a), EReal.coe_mul]

/-- A pattern whose exponent field is not all ones denotes a real number. -/
private theorem ieee_real (e m : Nat) {w : Nat} (b : BitVec w) (h : (b.extractLsb' m e).toNat ≠ 2 ^ e - 1) :
    ∃ r : ℝ, Ideal.ieee e m b = (r : EReal) := by
  unfold Ideal.ieee
  simp only []
  rw [if_neg h]
  split_ifs <;> exact ⟨_, rfl⟩

private theorem negBig_real : ∃ r : ℝ, negBig = (r : EReal) :=
  ieee_real 8 23 (0xD01502F9#32) (by decide)

private theorem one32_real : ∃ r : ℝ, one32 = (r : EReal) :=
  ieee_real 8 23 (0x3F800000#32) (by decide)

/-- Masking and scaling keep a real row real: the stand-in and the scale are finite f32 values. -/
theorem masked_real (e : Fin 2048 → EReal) (klen : BitVec 32) (he : ∀ t, ∃ r : ℝ, e t = (r : EReal)) (t : Fin 2048) :
    ∃ r : ℝ, masked e klen t = (r : EReal) := by
  obtain ⟨rn, hn⟩ := negBig_real
  obtain ⟨ro, ho⟩ := one32_real
  obtain ⟨re, hre⟩ := he t
  unfold masked Scalar.select
  split_ifs
  · exact ⟨rn * ro, by rw [hn, ho, EReal.coe_mul]⟩
  · exact ⟨re * ro, by rw [hre, ho, EReal.coe_mul]⟩

/-- On a real row the shifted exponentials are real, and their sum is a real number at least 1: the row maximum is
    attained, and the shifted exponential there is exp 0 = 1, every other one being positive. -/
private theorem softmax_real (x : Fin 2048 → EReal) (hx : ∀ t, ∃ r : ℝ, x t = (r : EReal)) :
    ∃ (p : Fin 2048 → ℝ) (L : ℝ), (∀ t, expShift x t = (p t : EReal)) ∧ denom x = (L : EReal) ∧ 1 ≤ L ∧ L = ∑ t, p t := by
  choose r hr using hx
  have hsup : rowMax x = Finset.univ.sup x := rfl
  obtain ⟨tm, -, htm⟩ := Finset.exists_mem_eq_sup Finset.univ Finset.univ_nonempty x
  have hM : rowMax x = (r tm : EReal) := by rw [hsup, htm, hr tm]
  have hp : ∀ t, expShift x t = ((Real.exp (r t - r tm) : ℝ) : EReal) := fun t => by
    unfold expShift
    rw [hM, hr t, ← EReal.coe_sub, Ideal.exp_coe]
  refine ⟨fun t => Real.exp (r t - r tm), ∑ t, Real.exp (r t - r tm), hp, ?_, ?_, rfl⟩
  · unfold denom
    rw [← coe_sum]
    exact Finset.sum_congr rfl (fun t _ => hp t)
  · calc (1 : ℝ) = Real.exp (r tm - r tm) := by simp
      _ ≤ ∑ t, Real.exp (r t - r tm) :=
          Finset.single_le_sum (f := fun t => Real.exp (r t - r tm)) (fun t _ => (Real.exp_pos _).le) (Finset.mem_univ tm)

/-- With the sum at least 1 the guard 10⁻³⁰ under it is idle. -/
private theorem max_tiny {L : ℝ} (h1 : 1 ≤ L) : max (L : EReal) tiny = (L : EReal) := by
  apply max_eq_left
  show ((1 / 1000000000000000000000000000000 : ℝ) : EReal) ≤ (L : EReal)
  exact EReal.coe_le_coe_iff.mpr (le_trans (by norm_num) h1)

/-- On a real row the guard under the denominator is idle. -/
theorem attnGuard_eq (x : Fin 2048 → EReal) (hx : ∀ t, ∃ r : ℝ, x t = (r : EReal)) (t : Fin 2048) : attnGuard x t = attn x t := by
  obtain ⟨p, L, -, hL, h1, -⟩ := softmax_real x hx
  unfold attnGuard attn
  rw [hL, max_tiny h1]

/-- On a real row and real values, dividing the averaged values after the sum is averaging with the divided weights. -/
theorem ctxGuard_eq (x : Fin 2048 → EReal) (v : Fin 2048 → Fin 512 → EReal) (hx : ∀ t, ∃ r : ℝ, x t = (r : EReal))
    (hv : ∀ t d, ∃ r : ℝ, v t d = (r : EReal)) (d : Fin 512) : ctxGuard x v d = ctx x v d := by
  obtain ⟨p, L, hp, hL, h1, -⟩ := softmax_real x hx
  choose rv hrv using hv
  have hL0 : L ≠ 0 := by linarith
  have lhs : ∑ t : Fin 2048, expShift x t * v t d = ((∑ t : Fin 2048, p t * rv t d : ℝ) : EReal) := by
    rw [← coe_sum]
    exact Finset.sum_congr rfl (fun t _ => by rw [hp t, hrv t d, EReal.coe_mul])
  have rhs : ∑ t : Fin 2048, Ideal.div (expShift x t) (L : EReal) * v t d
      = ((∑ t : Fin 2048, p t * (1 / L) * rv t d : ℝ) : EReal) := by
    rw [← coe_sum]
    exact Finset.sum_congr rfl (fun t _ => by rw [Ideal.div_coe hL0, hp t, hrv t d, EReal.coe_mul, EReal.coe_mul])
  unfold ctxGuard ctx attn
  rw [hL, max_tiny h1, Ideal.div_coe hL0, lhs, rhs, ← EReal.coe_mul, Finset.sum_mul]
  congr 1
  exact Finset.sum_congr rfl (fun t _ => by ring)

end Cert.Attn

end
-- ==== Proof.FiniteInputs.lean ====
/-
  Finite inputs are real numbers: what the precondition says of the value array and of the output weights.
-/
import proofs.«430874_j78606491452122_3_alg».proof.Defs
import proofs.«430874_j78606491452122_3_alg».proof.Proof.Gen.Pre_finite_inputs
import Idealize.ShloMosaic.Lib.ReduceAll
import Idealize.ShloMosaic.Lib.ValueIdx

noncomputable section

namespace Cert.KernelIdeal.Finite

open Cert.KernelIdeal Idealize.ShloMosaic Idealize.ShloMosaic.TcCoe Idealize.SL.Sem

/-- The f32 pattern with an all-ones exponent and a zero significand denotes +∞. -/
private theorem inf_pattern : Ideal.ofBits .f32 0x7F800000#32 = (⊤ : EReal) := by
  simp [Ideal.ofBits, Ideal.ieee]

/-- An extended real whose absolute value `max x (-x)` is strictly below +∞ is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- The scalar test `|x| < +∞`, read back: the comparison bit is 1 only when the strict inequality holds. -/
private theorem real_of_cmp (x : EReal)
    (h : Ideal.cmp .olt (max x (-x)) (Ideal.ofBits .f32 0x7F800000#32) = 1#1) :
    ∃ r : ℝ, x = (r : EReal) := by
  rw [inf_pattern] at h
  apply real_of_abs_lt_top
  by_contra hlt
  simp [Ideal.cmp, hlt] at h

private instance : Subsingleton Cert.Pre_finite_inputs.S_.Idx := ⟨fun a b => funext fun d => d.elim0⟩

/-- One test `|x| < +∞` at every entry of an array, reduced by `and` to a single bit that came out 1, says every entry is real. -/
private theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1)
    (i : s.Idx) : ∃ r : ℝ, x i = (r : EReal) :=
  real_of_cmp (x i) (Host.reduce_andi_all _ _ hr hu _ e i)

variable [hPre : Cert.Pre_finite_inputs.Facts] (m : (ℓ : Loc nD τ sig) → Buf (Elt Ideal) ℓ)

/-- The precondition is a nine-fold conjunction of such all-entries tests `|x| < +∞`, one per float argument, nested to the
    left; split once, the conjuncts of argument 2 and argument 9 give the two facts. -/
private theorem arg2_arg9_real (h : Cert.Pre_KernelIdeal m) (c : Dev nD) :
    (∀ i : S64x2048x512.Idx, ∃ r : ℝ, m ((c.tc : Thread nD τ).loc main_arg2) i = (r : EReal)) ∧
    (∀ i : S512x1.Idx, ∃ r : ℝ, m ((c.tc : Thread nD τ).loc main_arg9) i = (r : EReal)) := by
  have e := congrFun (h c) ValueIdx.ix0
  dsimp only [Cert.Pre_finite_inputs.fn, Cert.Pre_finite_inputs.fn_part1, Cert.Pre_finite_inputs.fn_part2] at e
  simp only [Idealize.ShloMosaic.andi, IntOp.andi_eq_one] at e
  obtain ⟨⟨⟨⟨⟨⟨⟨⟨_, _⟩, e2⟩, _⟩, _⟩, _⟩, _⟩, _⟩, e9⟩ := e
  exact ⟨fun i => all_real _ _ _ _ e2 i, fun i => all_real _ _ _ _ e9 i⟩

/-- Under the precondition every entry of the value array (argument 2) is a real number. -/
theorem value_real (h : Cert.Pre_KernelIdeal m) (c : Dev nD) (i : S64x2048x512.Idx) :
    ∃ r : ℝ, m ((c.tc : Thread nD τ).loc main_arg2) i = (r : EReal) :=
  (arg2_arg9_real m h c).1 i

/-- Under the precondition every entry of the output weights Wo (argument 9) is a real number. -/
theorem wo_real (h : Cert.Pre_KernelIdeal m) (c : Dev nD) (i : S512x1.Idx) :
    ∃ r : ℝ, m ((c.tc : Thread nD τ).loc main_arg9) i = (r : EReal) :=
  (arg2_arg9_real m h c).2 i

end Cert.KernelIdeal.Finite

end
-- ==== Proof.RefValue.lean ====
/-
  The reference, index by index: its attention weights are the plain softmax of the masked energies of each batch
  row, and its context their weighted sum of the value rows.
-/
import proofs.«430874_j78606491452122_3_alg».proof.Proof.Gen.ReferenceIdeal.Read
import proofs.«430874_j78606491452122_3_alg».proof.Proof.AttnSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : S64x512.Idx → EReal) (x1 x2 : S64x2048x512.Idx → EReal) (x3 : S64x2048.Idx → EReal) (x4 : S64.Idx → BitVec 32)
  (x5 : S512x512.Idx → EReal) (x6 : S512.Idx → EReal) (x7 : S512x512.Idx → EReal) (x8 : S1x512.Idx → EReal) (x9 : S512x1.Idx → EReal)

/-- The query projection q = query · Wq + bq, as the reference computes it. -/
abbrev qproj : S64x512.Idx → EReal := val_main_v3 (F := Ideal) x0 x5 x6

/-- The masked energies of batch row b, from the reference's arguments. -/
def rows (b : Fin 64) : Fin 2048 → EReal :=
  Cert.Attn.rowEnergies (fun b t d => x1 (ix3 b t d)) (fun d a => x7 (ix2 d a)) (fun b a => qproj x0 x5 x6 (ix2 b a))
    (fun b t => x3 (ix2 b t)) (fun a => x8 (ix2 0 a)) (fun a => x9 (ix2 a 0)) (fun b => x4 (ix1 b)) b

/-! ### The layout operations' index maps at an index given by its coordinates -/

local macro "idx_by_rfl1" : tactic =>
  `(tactic| exact funext fun a => Fin.ext (by match a with | ⟨0, _⟩ => rfl))
local macro "idx_by_rfl2" : tactic =>
  `(tactic| exact funext fun a => Fin.ext (by match a with | ⟨0, _⟩ => rfl | ⟨1, _⟩ => rfl))
local macro "idx_by_rfl3" : tactic =>
  `(tactic| exact funext fun a => Fin.ext (by match a with | ⟨0, _⟩ => rfl | ⟨1, _⟩ => rfl | ⟨2, _⟩ => rfl))

private theorem e17 (b : Fin 64) (t : Fin 2048) : idx_main_v17 (ix3 b (0 : Fin 1) t) = ix3 (0 : Fin 1) b t := by idx_by_rfl3
private theorem l16 (b : Fin 64) (t : Fin 2048) (k : Fin 512) : lidx_main_v16 (ix3 (0 : Fin 1) b t) k = ix2 k (0 : Fin 1) := by idx_by_rfl2
private theorem r16 (b : Fin 64) (t : Fin 2048) (k : Fin 512) : ridx_main_v16 (ix3 (0 : Fin 1) b t) k = ix3 b t k := by idx_by_rfl3
private theorem e12 (b : Fin 64) (t : Fin 2048) (a : Fin 512) : idx_main_v12 (ix3 b t a) = ix3 b (0 : Fin 1) a := by idx_by_rfl3
private theorem e11 (b : Fin 64) (a : Fin 512) : idx_main_v11 (ix3 b (0 : Fin 1) a) = ix2 b a := by idx_by_rfl2
private theorem l4 (b : Fin 64) (t : Fin 2048) (a k : Fin 512) : lidx_main_v4 (ix3 b t a) k = ix3 b t k := by idx_by_rfl3
private theorem r4 (b : Fin 64) (t : Fin 2048) (a k : Fin 512) : ridx_main_v4 (ix3 b t a) k = ix2 k a := by idx_by_rfl2
private theorem e8 (b : Fin 64) (t : Fin 2048) (a : Fin 512) : idx_main_v8 (ix3 b t a) = ix3 b t (0 : Fin 1) := by idx_by_rfl3
private theorem e5 (b : Fin 64) (t : Fin 2048) : idx_main_v5 (ix3 b t (0 : Fin 1)) = ix2 b t := by idx_by_rfl2
private theorem e9 (b : Fin 64) (t : Fin 2048) (a : Fin 512) : idx_main_v9 (ix3 b t a) = ix3 (0 : Fin 1) (0 : Fin 1) a := by idx_by_rfl3
private theorem e7 (a : Fin 512) : idx_main_v7 (ix3 (0 : Fin 1) (0 : Fin 1) a) = ix1 a := by idx_by_rfl1
private theorem e6 (a : Fin 512) : idx_main_v6 (ix1 a) = ix2 (0 : Fin 1) a :=
  funext fun c => Fin.ext (by
    match c with
    | ⟨0, _⟩ => rfl
    | ⟨1, _⟩ => show a.val % 512 = a.val; have := a.isLt; omega)
private theorem e21 (b : Fin 64) (t : Fin 2048) : idx_main_v21 (ix3 b (0 : Fin 1) t) = ix3 (0 : Fin 1) (0 : Fin 1) t := by idx_by_rfl3
private theorem e19 (t : Fin 2048) : idx_main_v19 (ix3 (0 : Fin 1) (0 : Fin 1) t) = ix1 t := by idx_by_rfl1
private theorem e22 (b : Fin 64) (t : Fin 2048) : idx_main_v22 (ix3 b (0 : Fin 1) t) = ix3 b (0 : Fin 1) (0 : Fin 1) := by idx_by_rfl3
private theorem e20 (b : Fin 64) : idx_main_v20 (ix3 b (0 : Fin 1) (0 : Fin 1)) = ix1 b := by idx_by_rfl1
private theorem e31 (b : Fin 64) (t : Fin 2048) : idx_main_v31 (ix3 b (0 : Fin 1) t) = ix3 b (0 : Fin 1) (0 : Fin 1) := by idx_by_rfl3
private theorem e30 (b : Fin 64) : idx_main_v30 (ix3 b (0 : Fin 1) (0 : Fin 1)) = ix2 b (0 : Fin 1) := by idx_by_rfl2
private theorem e36 (b : Fin 64) (t : Fin 2048) : idx_main_v36 (ix3 b (0 : Fin 1) t) = ix3 b (0 : Fin 1) (0 : Fin 1) := by idx_by_rfl3
private theorem e35 (b : Fin 64) : idx_main_v35 (ix3 b (0 : Fin 1) (0 : Fin 1)) = ix2 b (0 : Fin 1) := by idx_by_rfl2
private theorem e34 (b : Fin 64) (k : Fin 2048) : idx_main_v34 (ix2 b (0 : Fin 1)) k = ix3 b (0 : Fin 1) k := by idx_by_rfl3
private theorem l38 (b : Fin 64) (d : Fin 512) (k : Fin 2048) : lidx_main_v38 (ix3 b (0 : Fin 1) d) k = ix3 b (0 : Fin 1) k := by idx_by_rfl3
private theorem r38 (b : Fin 64) (d : Fin 512) (k : Fin 2048) : ridx_main_v38 (ix3 b (0 : Fin 1) d) k = ix3 b k d := by idx_by_rfl3
private theorem e39 (b : Fin 64) (d : Fin 512) : idx_main_v39 (ix2 b d) = ix3 b (0 : Fin 1) d :=
  funext fun c => Fin.ext (by
    have hb := b.isLt
    have hd := d.isLt
    match c with
    | ⟨0, _⟩ => show (b.val * 512 + d.val) / 512 = b.val; omega
    | ⟨1, _⟩ => rfl
    | ⟨2, _⟩ => show (b.val * 512 + d.val) % 512 = d.val; omega)

/-! ### The stages, read at an index -/

/-- The energy of key position t of batch row b: the Wo-weighted sum of tanh of the additive scores. -/
private theorem energy_eq (b : Fin 64) (t : Fin 2048) :
    val_main_v17 (F := Ideal) x0 x1 x3 x5 x6 x7 x8 x9 (ix3 b (0 : Fin 1) t)
      = Cert.Attn.energy (fun a => x9 (ix2 a (0 : Fin 1)))
          (Cert.Attn.score (fun d => x1 (ix3 b t d)) (fun d a => x7 (ix2 d a)) (fun a => qproj x0 x5 x6 (ix2 b a))
            (x3 (ix2 b t)) (fun a => x8 (ix2 (0 : Fin 1) a))) := by
  rw [val_main_v17_apply, e17, val_main_v16_apply]
  simp only [Cert.Attn.energy, Cert.Attn.score]
  refine Finset.sum_congr rfl fun a _ => ?_
  rw [l16, r16, val_main_v15_apply, val_main_v14_apply, val_main_v13_apply, val_main_v12_apply, e12, val_main_v11_apply, e11,
    val_main_v4_apply, val_main_v10_apply, val_main_v8_apply, e8, val_main_v5_apply, e5, val_main_v9_apply, e9,
    val_main_v7_apply, e7, val_main_v6_apply, e6]
  simp only [l4, r4, Ideal.hostUnary_tanh_def, Ideal.addf_def, Ideal.mulf_def]
  rw [add_comm (val_main_v3 (F := Ideal) x0 x5 x6 (ix2 b a))]

/-- The masked, scaled energy at (b, 0, t) is the row's entry at t. -/
private theorem row_eq (b : Fin 64) (t : Fin 2048) :
    val_main_v26 (F := Ideal) x0 x1 x3 x4 x5 x6 x7 x8 x9 (ix3 b (0 : Fin 1) t) = rows x0 x1 x3 x4 x5 x6 x7 x8 x9 b t := by
  rw [val_main_v26_apply, val_main_v25_apply, val_main_cst_0_apply, val_main_v24_apply, val_main_v23_apply,
    val_main_v21_apply, e21, val_main_v19_apply, e19, val_main_v18_apply, val_main_v22_apply, e22, val_main_v20_apply, e20,
    val_main_call0_v1_apply, val_main_call0_v0_apply, val_main_cst_apply, energy_eq]
  rfl

/-- The reduced index (b, 0) with the key position k put back is (b, 0, k). -/
private theorem lift_ix (h : S64x1x2048.Reduces [2] S64x1) (b : Fin 64) (k : Fin (S64x1x2048.size 2)) :
    h.lift (ix2 b (0 : Fin 1)) k = ix3 b (0 : Fin 1) (⟨k.val, k.isLt⟩ : Fin 2048) :=
  funext fun c => Fin.ext (by match c with | ⟨0, _⟩ => rfl | ⟨1, _⟩ => rfl | ⟨2, _⟩ => rfl)

/-- The word of -∞ is the bottom of the extended reals. -/
private theorem negInf_eq_bot : Ideal.ofBits .f32 0xFF800000#32 = (⊥ : EReal) := by
  simp [Ideal.ofBits, Ideal.ieee]

/-- The row maximum at (b, 0): the maximum from -∞ over the key positions of the row's masked energies. -/
private theorem rowMax_eq (b : Fin 64) :
    val_main_v29 (F := Ideal) x0 x1 x3 x4 x5 x6 x7 x8 x9 (ix2 b (0 : Fin 1))
      = Cert.Attn.rowMax (rows x0 x1 x3 x4 x5 x6 x7 x8 x9 b) := by
  have h : S64x1x2048.Reduces [2] S64x1 := by decide
  have hf : (val_main_v26 (F := Ideal) x0 x1 x3 x4 x5 x6 x7 x8 x9 ∘ h.lift (ix2 b (0 : Fin 1)))
      = rows x0 x1 x3 x4 x5 x6 x7 x8 x9 b := funext fun k => by
    show val_main_v26 (F := Ideal) x0 x1 x3 x4 x5 x6 x7 x8 x9 (h.lift (ix2 b (0 : Fin 1)) k) = _
    rw [lift_ix h b k]
    exact row_eq x0 x1 x3 x4 x5 x6 x7 x8 x9 b _
  rw [val_main_v29_apply, val_main_v28_apply, val_main_cst_2_apply]
  unfold val_main_v27
  rw [Host.reduce_eq_fold_single FloatOps.maximumf _ _ reducesTo_S64x1x2048_S64x1_d2 h h_S_, hf, val_main_cst_1_apply]
  simp only [Ideal.ofBits_def, Ideal.maximumf_def, negInf_eq_bot]
  rw [max_bot_left]
  rfl

/-- The shifted exponential at (b, 0, t). -/
private theorem exp_eq (b : Fin 64) (t : Fin 2048) :
    val_main_v33 (F := Ideal) x0 x1 x3 x4 x5 x6 x7 x8 x9 (ix3 b (0 : Fin 1) t)
      = Cert.Attn.expShift (rows x0 x1 x3 x4 x5 x6 x7 x8 x9 b) t := by
  rw [val_main_v33_apply, val_main_v32_apply, val_main_v31_apply, e31, val_main_v30_apply, e30, row_eq, rowMax_eq]
  rfl

/-- The softmax denominator, broadcast back to (b, 0, t): the sum of the row's shifted exponentials. -/
private theorem denom_eq (b : Fin 64) (t : Fin 2048) :
    val_main_v36 (F := Ideal) x0 x1 x3 x4 x5 x6 x7 x8 x9 (ix3 b (0 : Fin 1) t)
      = Cert.Attn.denom (rows x0 x1 x3 x4 x5 x6 x7 x8 x9 b) := by
  rw [val_main_v36_apply, e36, val_main_v35_apply, e35, val_main_v34_apply, val_main_cst_3_apply]
  simp only [e34, exp_eq, Ideal.ofBits_def, Ideal.ofBits_zero_f32, zero_add]
  rfl

/-- The reference's attention weights at (b, 0, t). -/
theorem attn_eq (b : Fin 64) (t : Fin 2048) :
    val_main_v37 (F := Ideal) x0 x1 x3 x4 x5 x6 x7 x8 x9 (ix3 b 0 t) = Cert.Attn.attn (rows x0 x1 x3 x4 x5 x6 x7 x8 x9 b) t := by
  rw [val_main_v37_apply, exp_eq, denom_eq]
  rfl

/-- The reference's context at (b, d). -/
theorem ctx_eq (b : Fin 64) (d : Fin 512) :
    val_main_v39 (F := Ideal) x0 x1 x2 x3 x4 x5 x6 x7 x8 x9 (ix2 b d)
      = Cert.Attn.ctx (rows x0 x1 x3 x4 x5 x6 x7 x8 x9 b) (fun t d => x2 (ix3 b t d)) d := by
  rw [val_main_v39_apply, e39, val_main_v38_apply]
  simp only [Cert.Attn.ctx]
  refine Finset.sum_congr rfl fun k _ => ?_
  rw [l38, r38, attn_eq]

end Cert.ReferenceIdeal.RefValue

end
-- ==== Proof.KernelBlock.lean ====
/-
  What one grid point leaves in its two output blocks: the body's single store into each block covers it, so
  the block read back is the stored payload — the attention row for the weights block, the context row for the
  context block — as a pure function of the blocks the body loaded and of the key-length word it read.
-/
import proofs.«430874_j78606491452122_3_alg».proof.Proof.Gen.KernelIdeal.Frame
import Idealize.ShloMosaic.Lib.Pipeline.Value

set_option maxRecDepth 16384

noncomputable section

namespace Cert.KernelIdeal.Block

open Cert.KernelIdeal Cert.KernelIdeal.Gen
open Idealize.ShloMosaic Idealize.ShloMosaic.TcCoe Idealize.ShloMosaic.Tactic Idealize.SL.Sem

variable {F : FTy → Type} [FloatOps F] [Named F]

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a; rfl

/-- The key-length word the body reads at grid point `i`: the table's entry at the point's own coordinate. -/
def lenWord (c : Dev nD) (i : grid0.Coords) (xt0 : TbBuf0 (F := F) c tbM0_0) : Elt F .i32 :=
  View.readAt (Elt F) tbM0_0.view (Rect.unit (s := S64) (k0_off1 i) S1.size (k0_off1_inb i)).toLoadRect xt0 (Shape.Idx.first (numel1_S1.symm ▸ Nat.one_pos))

/-- The shifted exponentials of the row, from the loaded blocks. -/
abbrev expRow (c : Dev nD) (i : grid0.Coords) (x0 : Vec F S1x2048x512 .f32) (x1 : Vec F S1x1x2048 .f32) (x2 : Vec F S1x1x512 .f32)
    (x3 : Vec F S512x512 .bf16) (x4 : Vec F S1x512 .bf16) (x5 : Vec F S512 .f32) (xt0 : TbBuf0 (F := F) c tbM0_0) : FVec F S1x2048 .f32 :=
  k0_pay4 x0 x1 x2 x3 x5 x4 (lenWord c i xt0)

/-- The weights block a point leaves is the stored attention row. -/
theorem attnBlock_eq (c : Dev nD) (i : grid0.Coords) (arg2 : Memref sig .tc .vmem S1x2048x512 .f32) (harg2 : arg2.IsWhole) (arg3 : Memref sig .tc .vmem S1x1x2048 .f32) (harg3 : arg3.IsWhole) (arg4 : Memref sig .tc .vmem S1x1x512 .f32) (harg4 : arg4.IsWhole) (arg5 : Memref sig .tc .vmem S512x512 .bf16) (harg5 : arg5.IsWhole) (arg6 : Memref sig .tc .vmem S1x512 .bf16) (harg6 : arg6.IsWhole) (arg7 : Memref sig .tc .vmem S512 .f32) (harg7 : arg7.IsWhole) (arg8 : Memref sig .tc .vmem S1x2048x512 .f32) (harg8 : arg8.IsWhole) (arg9 : Memref sig .tc .vmem S1x1x512 .f32) (harg9 : arg9.IsWhole) (arg10 : Memref sig .tc .vmem S1x1x2048 .f32) (harg10 : arg10.IsWhole)
    (x0 : Vec F S1x2048x512 .f32) (x1 : Vec F S1x1x2048 .f32) (x2 : Vec F S1x1x512 .f32) (x3 : Vec F S512x512 .bf16) (x4 : Vec F S1x512 .bf16) (x5 : Vec F S512 .f32) (x6 : Vec F S1x2048x512 .f32) (xt0 : TbBuf0 (F := F) c tbM0_0) :
    out0_A_8 c i arg2 harg2 arg3 harg3 arg4 harg4 arg5 harg5 arg6 harg6 arg7 harg7 arg8 harg8 arg9 harg9 arg10 harg10 x0 x1 x2 x3 x4 x5 x6 xt0 = k0_pay2 (expRow c i x0 x1 x2 x3 x4 x5 xt0) := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6 xt0)]
  unfold kernelRun0_A
  dsimp only
  sl_unfold_words
  rw [View.canon_unit_zero zero3]
  simp only [View.readAt_eq_ld, Memref.IsWhole.read_unread, View.ld_unit_zero (S := S1x2048x512) zero3,
    View.ld_unit_zero (S := S1x1x2048) zero3, View.ld_unit_zero (S := S1x1x512) zero3, View.ld_unit_zero (S := S512x512) zero2,
    View.ld_unit_zero (S := S1x512) zero2, View.ld_unit_zero (S := S512) zero1]
  rfl

/-- The context block a point leaves is the stored context row. -/
theorem ctxBlock_eq (c : Dev nD) (i : grid0.Coords) (arg2 : Memref sig .tc .vmem S1x2048x512 .f32) (harg2 : arg2.IsWhole) (arg3 : Memref sig .tc .vmem S1x1x2048 .f32) (harg3 : arg3.IsWhole) (arg4 : Memref sig .tc .vmem S1x1x512 .f32) (harg4 : arg4.IsWhole) (arg5 : Memref sig .tc .vmem S512x512 .bf16) (harg5 : arg5.IsWhole) (arg6 : Memref sig .tc .vmem S1x512 .bf16) (harg6 : arg6.IsWhole) (arg7 : Memref sig .tc .vmem S512 .f32) (harg7 : arg7.IsWhole) (arg8 : Memref sig .tc .vmem S1x2048x512 .f32) (harg8 : arg8.IsWhole) (arg9 : Memref sig .tc .vmem S1x1x512 .f32) (harg9 : arg9.IsWhole) (arg10 : Memref sig .tc .vmem S1x1x2048 .f32) (harg10 : arg10.IsWhole)
    (x0 : Vec F S1x2048x512 .f32) (x1 : Vec F S1x1x2048 .f32) (x2 : Vec F S1x1x512 .f32) (x3 : Vec F S512x512 .bf16) (x4 : Vec F S1x512 .bf16) (x5 : Vec F S512 .f32) (x6 : Vec F S1x2048x512 .f32) (xt0 : TbBuf0 (F := F) c tbM0_0) :
    out0_A_7 c i arg2 harg2 arg3 harg3 arg4 harg4 arg5 harg5 arg6 harg6 arg7 harg7 arg8 harg8 arg9 harg9 arg10 harg10 x0 x1 x2 x3 x4 x5 x6 xt0 = k0_pay3 (expRow c i x0 x1 x2 x3 x4 x5 xt0) x6 := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 x6 xt0)]
  unfold kernelRun0_A
  dsimp only
  sl_unfold_words
  rw [View.canon_unit_zero zero3]
  simp only [View.readAt_eq_ld, Memref.IsWhole.read_unread, View.ld_unit_zero (S := S1x2048x512) zero3,
    View.ld_unit_zero (S := S1x1x2048) zero3, View.ld_unit_zero (S := S1x1x512) zero3, View.ld_unit_zero (S := S512x512) zero2,
    View.ld_unit_zero (S := S1x512) zero2, View.ld_unit_zero (S := S512) zero1]
  rfl

end Cert.KernelIdeal.Block

end
-- ==== Proof.LibKeepdimsColumn.lean ====
/-
  A vector kept as one column, read at an index: an array of shape [a] viewed as [a, 1] holds at (i, u) the entry i of
  the vector (the unit coordinate carries nothing), and an [a, 1] column broadcast to [a, b] holds at (p, c) the
  column's entry p, whatever the column c. These are the two layout steps of a row reduction that keeps its axis
  (a sum over the lanes stored as a column and spread back over the lanes).
-/
import Idealize.ShloMosaic.Lib.ValueIdx
import Idealize.ShloMosaic.Lib.Pipeline.Value

noncomputable section

namespace Cert.Lib.KeepdimsColumn

open Idealize.ShloMosaic Idealize.ShloMosaic.ValueIdx

/-- An `[a]` array cast to `[a, 1]` reads, at `(i, u)`, the operand at `i`, whatever the unit coordinate `u`:
    both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`: the row axis is
    kept (also when `a = 1`, where `p = 0`), the unit column axis is spread. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepdimsColumn

end
-- ==== Proof.KernelRow.lean ====
/-
  One grid point's arithmetic at the ideal instance, index by index: from the blocks of one batch row — the keys
  [1,2048,512], the coverage row [1,1,2048], the projected query [1,1,512], the key weights [512,512], the
  coverage weights [512], the output weights [1,512] — and the row's key-length word, the body's shifted
  exponentials are those of the row's masked energies; the weights block divides them by the guarded sum, the
  context block divides their value-weighted sums by the same.
-/
import proofs.«430874_j78606491452122_3_alg».proof.Proof.Gen.KernelIdeal.Skeleton
import proofs.«430874_j78606491452122_3_alg».proof.Proof.AttnSpec
import proofs.«430874_j78606491452122_3_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen
open Idealize.ShloMosaic Idealize.ShloMosaic.ValueIdx Cert.Lib.KeepdimsColumn

/-! ## The three matrix products read at an index -/

theorem keysProj_lhs0 (i : S2048x512.Idx) (q : dot_S2048x512_S512x512_S2048x512_1_0_0_1_n_n.contr.Idx) : (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem keysProj_lhs1 (i : S2048x512.Idx) (q : dot_S2048x512_S512x512_S2048x512_1_0_0_1_n_n.contr.Idx) : (dot_S2048x512_S512x512_S2048x512_1_0_0_1_n_n.lhsIdx i q 1).val = (q ⟨0, by decide⟩).val :=
  dot_S2048x512_S512x512_S2048x512_1_0_0_1_n_n.lhsIdx_val_of_single rfl i q
theorem keysProj_rhs0 (i : S2048x512.Idx) (q : dot_S2048x512_S512x512_S2048x512_1_0_0_1_n_n.contr.Idx) : (dot_S2048x512_S512x512_S2048x512_1_0_0_1_n_n.rhsIdx i q 0).val = (q ⟨0, by decide⟩).val :=
  dot_S2048x512_S512x512_S2048x512_1_0_0_1_n_n.rhsIdx_val_of_single rfl i q
theorem keysProj_rhs1 (i : S2048x512.Idx) (q : dot_S2048x512_S512x512_S2048x512_1_0_0_1_n_n.contr.Idx) : (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- keys · Wk at (t, a): the sum over the key features. -/
theorem keysProj_apply (l : FVec Ideal S2048x512 .bf16) (r : FVec Ideal S512x512 .bf16) (t : Fin 2048) (a : Fin 512) :
    matmul dot_S2048x512_S512x512_S2048x512_1_0_0_1_n_n none l r (constant S2048x512 .f32 0x00000000#32) (ix2 t a) = ∑ d : Fin 512, l (ix2 t d) * r (ix2 d a) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 t a) ((contrEquiv1 dot_S2048x512_S512x512_S2048x512_1_0_0_1_n_n 512 rfl rfl).symm k) = ix2 t k := funext fun ax => Fin.ext (by
    match ax with
    | ⟨0, _⟩ => exact keysProj_lhs0 _ _
    | ⟨1, _⟩ => exact (keysProj_lhs1 _ _).trans hk)
  have er : dot_S2048x512_S512x512_S2048x512_1_0_0_1_n_n.rhsIdx (ix2 t a) ((contrEquiv1 dot_S2048x512_S512x512_S2048x512_1_0_0_1_n_n 512 rfl rfl).symm k) = ix2 k a := funext fun ax => Fin.ext (by
    match ax with
    | ⟨0, _⟩ => exact (keysProj_rhs0 _ _).trans hk
    | ⟨1, _⟩ => exact keysProj_rhs1 _ _)
  rw [el, er]

theorem energy_lhs0 (i : S1x2048.Idx) (q : dot_S1x512_S2048x512_S1x2048_1_1_0_0_n_n.contr.Idx) : (dot_S1x512_S2048x512_S1x2048_1_1_0_0_n_n.lhsIdx i q 0).val = (i 0).val := by
  unfold DotDims.lhsIdx
  rw [dif_neg (show ¬(0 : Fin S1x512.rank) ∈ dot_S1x512_S2048x512_S1x2048_1_1_0_0_n_n.lhsBatch by decide), dif_pos (show (0 : Fin S1x512.rank) ∈ dot_S1x512_S2048x512_S1x2048_1_1_0_0_n_n.lhsNonContracting by decide)]
  rfl
theorem energy_lhs1 (i : S1x2048.Idx) (q : dot_S1x512_S2048x512_S1x2048_1_1_0_0_n_n.contr.Idx) : (dot_S1x512_S2048x512_S1x2048_1_1_0_0_n_n.lhsIdx i q 1).val = (q ⟨0, by decide⟩).val :=
  dot_S1x512_S2048x512_S1x2048_1_1_0_0_n_n.lhsIdx_val_of_single rfl i q
theorem energy_rhs0 (i : S1x2048.Idx) (q : dot_S1x512_S2048x512_S1x2048_1_1_0_0_n_n.contr.Idx) : (dot_S1x512_S2048x512_S1x2048_1_1_0_0_n_n.rhsIdx i q 0).val = (i 1).val := by
  unfold DotDims.rhsIdx
  rw [dif_neg (show ¬(0 : Fin S2048x512.rank) ∈ dot_S1x512_S2048x512_S1x2048_1_1_0_0_n_n.rhsBatch by decide), dif_pos (show (0 : Fin S2048x512.rank) ∈ dot_S1x512_S2048x512_S1x2048_1_1_0_0_n_n.rhsNonContracting by decide)]
  rfl
theorem energy_rhs1 (i : S1x2048.Idx) (q : dot_S1x512_S2048x512_S1x2048_1_1_0_0_n_n.contr.Idx) : (dot_S1x512_S2048x512_S1x2048_1_1_0_0_n_n.rhsIdx i q 1).val = (q ⟨0, by decide⟩).val :=
  dot_S1x512_S2048x512_S1x2048_1_1_0_0_n_n.rhsIdx_val_of_single rfl i q

/-- wo · eᵀ at (0, t): the sum over the attention features. -/
theorem energyProd_apply (l : FVec Ideal S1x512 .bf16) (r : FVec Ideal S2048x512 .bf16) (t : Fin 2048) :
    matmul dot_S1x512_S2048x512_S1x2048_1_1_0_0_n_n none l r (constant S1x2048 .f32 0x00000000#32) (ix2 (0 : Fin 1) t) = ∑ a : Fin 512, l (ix2 (0 : Fin 1) a) * r (ix2 t a) := by
  simp only [matmul]
  rw [Ideal.matmul_constant_zero_apply, ← Equiv.sum_comp (contrEquiv1 dot_S1x512_S2048x512_S1x2048_1_1_0_0_n_n 512 rfl rfl).symm]
  refine Finset.sum_congr rfl fun k _ => ?_
  have hk := contrEquiv1_symm_val dot_S1x512_S2048x512_S1x2048_1_1_0_0_n_n 512 rfl rfl k
  have el : dot_S1x512_S2048x512_S1x2048_1_1_0_0_n_n.lhsIdx (ix2 (0 : Fin 1) t) ((contrEquiv1 dot_S1x512_S2048x512_S1x2048_1_1_0_0_n_n 512 rfl rfl).symm k) = ix2 (0 : Fin 1) k := funext fun ax => Fin.ext (by
    match ax with
    | ⟨0, _⟩ => exact energy_lhs0 _ _
    | ⟨1, _⟩ => exact (energy_lhs1 _ _).trans hk)
  have er : dot_S1x512_S2048x512_S1x2048_1_1_0_0_n_n.rhsIdx (ix2 (0 : Fin 1) t) ((contrEquiv1 dot_S1x512_S2048x512_S1x2048_1_1_0_0_n_n 512 rfl rfl).symm k) = ix2 t k := funext fun ax => Fin.ext (by
    match ax with
    | ⟨0, _⟩ => exact energy_rhs0 _ _
    | ⟨1, _⟩ => exact (energy_rhs1 _ _).trans hk)
  rw [el, er]

theorem ctx_lhs0 (i : S1x512.Idx) (q : dot_S1x2048_S2048x512_S1x512_1_0_0_1_n_n.contr.Idx) : (dot_S1x2048_S2048x512_S1x512_1_0_0_1_n_n.lhsIdx i q 0).val = (i 0).val := by
  unfold DotDims.lhsIdx
  rw [dif_neg (show ¬(0 : Fin S1x2048.rank) ∈ dot_S1x2048_S2048x512_S1x512_1_0_0_1_n_n.lhsBatch by decide), dif_pos (show (0 : Fin S1x2048.rank) ∈ dot_S1x2048_S2048x512_S1x512_1_0_0_1_n_n.lhsNonContracting by decide)]
  rfl
theorem ctx_lhs1 (i : S1x512.Idx) (q : dot_S1x2048_S2048x512_S1x512_1_0_0_1_n_n.contr.Idx) : (dot_S1x2048_S2048x512_S1x512_1_0_0_1_n_n.lhsIdx i q 1).val = (q ⟨0, by decide⟩).val :=
  dot_S1x2048_S2048x512_S1x512_1_0_0_1_n_n.lhsIdx_val_of_single rfl i q
theorem ctx_rhs0 (i : S1x512.Idx) (q : dot_S1x2048_S2048x512_S1x512_1_0_0_1_n_n.contr.Idx) : (dot_S1x2048_S2048x512_S1x512_1_0_0_1_n_n.rhsIdx i q 0).val = (q ⟨0, by decide⟩).val :=
  dot_S1x2048_S2048x512_S1x512_1_0_0_1_n_n.rhsIdx_val_of_single rfl i q
theorem ctx_rhs1 (i : S1x512.Idx) (q : dot_S1x2048_S2048x512_S1x512_1_0_0_1_n_n.contr.Idx) : (dot_S1x2048_S2048x512_S1x512_1_0_0_1_n_n.rhsIdx i q 1).val = (i 1).val := by
  unfold DotDims.rhsIdx
  rw [dif_neg (show ¬(1 : Fin S2048x512.rank) ∈ dot_S1x2048_S2048x512_S1x512_1_0_0_1_n_n.rhsBatch by decide), dif_pos (show (1 : Fin S2048x512.rank) ∈ dot_S1x2048_S2048x512_S1x512_1_0_0_1_n_n.rhsNonContracting by decide)]
  rfl

/-- p · value at (0, d): the sum over the key positions. -/
theorem ctxProd_apply (l : FVec Ideal S1x2048 .bf16) (r : FVec Ideal S2048x512 .bf16) (d : Fin 512) :
    matmul dot_S1x2048_S2048x512_S1x512_1_0_0_1_n_n none l r (constant S1x512 .f32 0x00000000#32) (ix2 (0 : Fin 1) d) = ∑ t : Fin 2048, l (ix2 (0 : Fin 1) t) * r (ix2 t d) := by
  simp only [matmul]
  rw [Ideal.matmul_constant_zero_apply, ← Equiv.sum_comp (contrEquiv1 dot_S1x2048_S2048x512_S1x512_1_0_0_1_n_n 2048 rfl rfl).symm]
  refine Finset.sum_congr rfl fun k _ => ?_
  have hk := contrEquiv1_symm_val dot_S1x2048_S2048x512_S1x512_1_0_0_1_n_n 2048 rfl rfl k
  have el : dot_S1x2048_S2048x512_S1x512_1_0_0_1_n_n.lhsIdx (ix2 (0 : Fin 1) d) ((contrEquiv1 dot_S1x2048_S2048x512_S1x512_1_0_0_1_n_n 2048 rfl rfl).symm k) = ix2 (0 : Fin 1) k := funext fun ax => Fin.ext (by
    match ax with
    | ⟨0, _⟩ => exact ctx_lhs0 _ _
    | ⟨1, _⟩ => exact (ctx_lhs1 _ _).trans hk)
  have er : dot_S1x2048_S2048x512_S1x512_1_0_0_1_n_n.rhsIdx (ix2 (0 : Fin 1) d) ((contrEquiv1 dot_S1x2048_S2048x512_S1x512_1_0_0_1_n_n 2048 rfl rfl).symm k) = ix2 k d := funext fun ax => Fin.ext (by
    match ax with
    | ⟨0, _⟩ => exact (ctx_rhs0 _ _).trans hk
    | ⟨1, _⟩ => exact ctx_rhs1 _ _)
  rw [el, er]

/-! ## The two lane reductions read at their one index -/

/-- The lane sum of a [1,2048] row. -/
theorem laneSum_apply (p : FVec Ideal S1x2048 .f32) (hφ : FKind.Formats .f32) (hacc : (0x00000000#32 : BitVec 32) = 0x00000000#32) :
    multiReduction .add [1] S1 p 0x00000000#32 reduces_S1x2048_S1 hφ hacc (ix1 (0 : Fin 1)) = ∑ t : Fin 2048, p (ix2 (0 : Fin 1) t) := by
  refine (Ideal.multiReduction_add_single p 0x00000000#32 reduces_S1x2048_S1 hφ hacc (ix1 (0 : Fin 1))).trans ?_
  exact Finset.sum_congr rfl fun t _ => congrArg p (funext fun a => Fin.ext (by match a with | ⟨0, _⟩ => rfl | ⟨1, _⟩ => rfl))

/-- The lane maximum of a [1,2048] row, from -∞. -/
theorem laneMax_single (p : FVec Ideal S1x2048 .f32) (hφ : FKind.Formats .f32) (hacc : (0xFF800000#32 : BitVec 32) = 0xFF800000#32) :
    multiReduction .maximumf [1] S1 p 0xFF800000#32 reduces_S1x2048_S1 hφ hacc (ix1 (0 : Fin 1))
      = (Finset.univ : Finset (Fin 2048)).fold max ⊥ (fun t => p (ix2 (0 : Fin 1) t)) := by
  refine (Ideal.multiReduction_maximumf_single p 0xFF800000#32 reduces_S1x2048_S1 hφ hacc (ix1 (0 : Fin 1))).trans ?_
  have hb : FloatOps.ofBits (F := Ideal) .f32 0xFF800000#32 = (⊥ : EReal) := by simp [Ideal.ofBits, Ideal.ieee]
  rw [hb]
  refine congrArg (fun f => (Finset.univ : Finset (Fin 2048)).fold max ⊥ f) (funext fun t => ?_)
  exact congrArg p (funext fun a => Fin.ext (by match a with | ⟨0, _⟩ => rfl | ⟨1, _⟩ => rfl))

/-! ## The row's arithmetic, stage by stage -/

section Stages

variable (x0 : Vec Ideal S1x2048x512 .f32) (x1 : Vec Ideal S1x1x2048 .f32) (x2 : Vec Ideal S1x1x512 .f32)
  (x3 : Vec Ideal S512x512 .bf16) (x4 : Vec Ideal S1x512 .bf16) (x5 : Vec Ideal S512 .f32) (x6 : Vec Ideal S1x2048x512 .f32) (w : BitVec 32)

/-- The scores [2048,512] as the body forms them. -/
def scoreVec : FVec Ideal S2048x512 .f32 :=
  addf (addf (matmul dot_S2048x512_S512x512_S2048x512_1_0_0_1_n_n none (truncf .bf16 (shapeCast S2048x512 x0 shapeCasts_S1x2048x512_S2048x512) bitsLt_bf16_f32)
      (shapeCast S512x512 x3 shapeCasts_S512x512_S512x512 : FVec Ideal S512x512 .bf16) (constant S2048x512 .f32 0x00000000#32))
      (broadcastTo S2048x512 (shapeCast S1x512 x2 shapeCasts_S1x1x512_S1x512) broadcasts_S1x512_S2048x512))
    (mulf (broadcastTo S2048x512 (transpose S2048x1 [1, 0] (shapeCast S1x2048 x1 shapeCasts_S1x1x2048_S1x2048) transposes_S1x2048_p1_0_S2048x1) broadcasts_S2048x1_S2048x512)
      (broadcastTo S2048x512 (shapeCast S1x512 (shapeCast S512 x5 shapeCasts_S512_S512) shapeCasts_S512_S1x512) broadcasts_S1x512_S2048x512))

/-- The energies [1,2048]. -/
def energyVec : FVec Ideal S1x2048 .f32 :=
  matmul dot_S1x512_S2048x512_S1x2048_1_1_0_0_n_n none (shapeCast S1x512 x4 shapeCasts_S1x512_S1x512 : FVec Ideal S1x512 .bf16)
    (truncf .bf16 (tanh (scoreVec x0 x1 x2 x3 x5)) bitsLt_bf16_f32) (constant S1x2048 .f32 0x00000000#32)

/-- The masked, scaled energies [1,2048]. -/
def maskedVec : FVec Ideal S1x2048 .f32 :=
  mulf (select (cmpi .sge (iota .tc S1x2048 32 [1] iota_S1x2048_d1_w32) (broadcast S1x2048 w))
      (broadcast S1x2048 (Scalar.ofBits .f32 0xD01502F9#32)) (energyVec x0 x1 x2 x3 x4 x5))
    (broadcast S1x2048 (Scalar.ofBits .f32 0x3F800000#32))

/-- The body's shifted exponentials are the exponentials of the masked energies less their lane maximum. -/
theorem pay4_eq : k0_pay4 x0 x1 x2 x3 x5 x4 w
    = exp (subf (maskedVec x0 x1 x2 x3 x4 x5 w)
        (broadcastTo S1x2048 (shapeCast S1x1 (multiReduction .maximumf [1] S1 (maskedVec x0 x1 x2 x3 x4 x5 w) 0xFF800000#32 reduces_S1x2048_S1 (.inl rfl) rfl) shapeCasts_S1_S1x1) broadcasts_S1x1_S1x2048)) := rfl

/-- The ingredients of the row, by coordinates. -/
abbrev krow (t : Fin 2048) (d : Fin 512) : EReal := x0 (ix3 (0 : Fin 1) t d)
abbrev wk (d a : Fin 512) : EReal := x3 (ix2 d a)
abbrev qrow (a : Fin 512) : EReal := x2 (ix3 (0 : Fin 1) (0 : Fin 1) a)
abbrev cov (t : Fin 2048) : EReal := x1 (ix3 (0 : Fin 1) (0 : Fin 1) t)
abbrev wc (a : Fin 512) : EReal := x5 (ix1 a)
abbrev wo (a : Fin 512) : EReal := x4 (ix2 (0 : Fin 1) a)

/-- The score at (t, a). -/
theorem scoreVec_apply (t : Fin 2048) (a : Fin 512) :
    scoreVec x0 x1 x2 x3 x5 (ix2 t a) = Cert.Attn.score (krow x0 t) (wk x3) (qrow x2) (cov x1 t) (wc x5) a := by
  unfold scoreVec Cert.Attn.score
  rw [addf_apply, addf_apply, mulf_apply, keysProj_apply, broadcastTo_1b_ab_apply, broadcastTo_a1_ab_apply, broadcastTo_1b_ab_apply,
    shapeCast_1ab_ab_apply, transpose_ix2_apply, shapeCast_1ab_ab_apply, shapeCast_a_1a_apply, shapeCast_self, shapeCast_self]
  refine congrArg (· + _) (congrArg (· + _) (Finset.sum_congr rfl fun d _ => ?_))
  rw [truncf_apply, shapeCast_1ab_ab_apply]

/-- The energy at (0, t). -/
theorem energyVec_apply (t : Fin 2048) :
    energyVec x0 x1 x2 x3 x4 x5 (ix2 (0 : Fin 1) t)
      = Cert.Attn.energy (wo x4) (Cert.Attn.score (krow x0 t) (wk x3) (qrow x2) (cov x1 t) (wc x5)) := by
  unfold energyVec Cert.Attn.energy
  rw [energyProd_apply]
  refine Finset.sum_congr rfl fun a _ => ?_
  rw [shapeCast_self, truncf_apply]
  show x4 (ix2 (0 : Fin 1) a) * Ideal.tanh (scoreVec x0 x1 x2 x3 x5 (ix2 t a)) = _
  rw [scoreVec_apply]

/-- The row of masked energies, as a function of the key position. -/
abbrev xrow : Fin 2048 → EReal :=
  Cert.Attn.masked (fun t => Cert.Attn.energy (wo x4) (Cert.Attn.score (krow x0 t) (wk x3) (qrow x2) (cov x1 t) (wc x5))) w

/-- The masked energy at (0, t). -/
theorem maskedVec_apply (t : Fin 2048) : maskedVec x0 x1 x2 x3 x4 x5 w (ix2 (0 : Fin 1) t) = xrow x0 x1 x2 x3 x4 x5 w t := by
  unfold maskedVec
  show _ = Cert.Attn.masked _ w t
  unfold Cert.Attn.masked
  rw [mulf_apply, select_apply, energyVec_apply]
  show Scalar.select (IntOp.cmpi .sge (iota .tc S1x2048 32 [1] iota_S1x2048_d1_w32 (ix2 (0 : Fin 1) t)) w) _ _ * _ = _
  rw [iota_single_apply]
  rfl

/-- The lane maximum of the masked energies is the row maximum from -∞. -/
theorem laneMax_apply :
    multiReduction .maximumf [1] S1 (maskedVec x0 x1 x2 x3 x4 x5 w) 0xFF800000#32 reduces_S1x2048_S1 (.inl rfl) rfl (ix1 (0 : Fin 1))
      = Cert.Attn.rowMax (xrow x0 x1 x2 x3 x4 x5 w) := by
  refine (laneMax_single _ _ _).trans ?_
  unfold Cert.Attn.rowMax
  exact congrArg (fun f => (Finset.univ : Finset (Fin 2048)).fold max ⊥ f) (funext fun t => maskedVec_apply x0 x1 x2 x3 x4 x5 w t)

/-- The shifted exponential at (0, t). -/
theorem pay4_apply (t : Fin 2048) :
    k0_pay4 x0 x1 x2 x3 x5 x4 w (ix2 (0 : Fin 1) t) = Cert.Attn.expShift (xrow x0 x1 x2 x3 x4 x5 w) t := by
  rw [pay4_eq]
  unfold Cert.Attn.expShift
  show Ideal.exp (maskedVec x0 x1 x2 x3 x4 x5 w (ix2 (0 : Fin 1) t) - broadcastTo S1x2048 _ broadcasts_S1x1_S1x2048 (ix2 (0 : Fin 1) t)) = _
  rw [broadcastTo_a1_ab_apply, shapeCast_a_a1_apply, laneMax_apply, maskedVec_apply]

end Stages

/-! ## The two stored rows -/

section Stores

variable (p : FVec Ideal S1x2048 .f32) (x6 : Vec Ideal S1x2048x512 .f32)

/-- The named guard constant is 10⁻³⁰ at the ideal instance. -/
theorem guard_eq : Named.named (F := Ideal) κ "inv_1000000000000000000000000000000" (φ := .f32) 0x0DA24260#32 = Cert.Attn.tiny :=
  IdealRules.named_const.ideal_named_scalar _ _ _ _ rfl

/-- The guarded denominator: the larger of the lane sum and 10⁻³⁰. -/
theorem pay1_apply : k0_pay1 p (ix2 (0 : Fin 1) (0 : Fin 1)) = max (∑ t : Fin 2048, p (ix2 (0 : Fin 1) t)) Cert.Attn.tiny := by
  unfold k0_pay1
  dsimp only
  rw [maximumf_apply, shapeCast_a_a1_apply, laneSum_apply, broadcast_apply, guard_eq]

/-- The stored attention row at (0, 0, t). -/
theorem pay2_apply (t : Fin 2048) :
    k0_pay2 p (ix3 (0 : Fin 1) (0 : Fin 1) t)
      = Ideal.div (p (ix2 (0 : Fin 1) t)) (max (∑ t : Fin 2048, p (ix2 (0 : Fin 1) t)) Cert.Attn.tiny) := by
  unfold k0_pay2
  rw [shapeCast_ab_1ab_apply, divf_apply, broadcastTo_a1_ab_apply, pay1_apply]

/-- The stored context row at (0, 0, d). -/
theorem pay3_apply (d : Fin 512) :
    k0_pay3 p x6 (ix3 (0 : Fin 1) (0 : Fin 1) d)
      = Ideal.div (∑ t : Fin 2048, p (ix2 (0 : Fin 1) t) * x6 (ix3 (0 : Fin 1) t d)) (max (∑ t : Fin 2048, p (ix2 (0 : Fin 1) t)) Cert.Attn.tiny) := by
  unfold k0_pay3
  rw [shapeCast_ab_1ab_apply, divf_apply, broadcastTo_a1_ab_apply, pay1_apply, ctxProd_apply]
  refine congrArg (Ideal.div · _) (Finset.sum_congr rfl fun t _ => ?_)
  rw [truncf_apply, truncf_apply, shapeCast_1ab_ab_apply]

end Stores

end Cert.KernelIdeal.Row

end
-- ==== Proof.KernelWindows.lean ====
/-
  The blocks a grid point works on, read at an index: the grid has one point per batch row; point t's block of
  the keys, of the values, of the coverage row and of the projected query is batch row t of the array the region
  found; the three weight arrays are fetched whole; and the key-length word the body reads at point t is entry t
  of the key lengths.
-/
import proofs.«430874_j78606491452122_3_alg».proof.Proof.Gen.KernelIdeal.Frame
import proofs.«430874_j78606491452122_3_alg».proof.Proof.KernelBlock
import Idealize.ShloMosaic.Lib.ValueIdx
import Idealize.ShloMosaic.Lib.Pipeline.Value

set_option maxRecDepth 16384

noncomputable section

namespace Cert.KernelIdeal.Windows

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (hO : Ok m)

/-- The batch row of grid point t. -/
def row (t : Fin (cfgM m hO).N) : Fin 64 := ⟨t.val, t.isLt⟩

/-! ## The index maps over the grid

Each printed index map is a closed function of the grid point; decided once over the 64 points, the four row windows
send point t to block (t, 0, 0) and the three weight windows stay at block 0. -/

/-- The keys window is at block (t, 0, 0) at point t. -/
private theorem index0 (a : (pcfg0 (F := Ideal)).Adm) : ∀ t : Fin (cfg0 a).N, ((cfg0 a).win 0).index t = ![t.val, 0, 0] :=
  (by decide +kernel : ∀ t : Fin grid0.N, cc0_transform_0 (grid0.coords t) = ![t.val, 0, 0])
/-- The coverage window is at block (t, 0, 0) at point t. -/
private theorem index1 (a : (pcfg0 (F := Ideal)).Adm) : ∀ t : Fin (cfg0 a).N, ((cfg0 a).win 1).index t = ![t.val, 0, 0] :=
  (by decide +kernel : ∀ t : Fin grid0.N, cc0_transform_1 (grid0.coords t) = ![t.val, 0, 0])
/-- The projected-query window is at block (t, 0, 0) at point t. -/
private theorem index2 (a : (pcfg0 (F := Ideal)).Adm) : ∀ t : Fin (cfg0 a).N, ((cfg0 a).win 2).index t = ![t.val, 0, 0] :=
  (by decide +kernel : ∀ t : Fin grid0.N, cc0_transform_2 (grid0.coords t) = ![t.val, 0, 0])
/-- The first weight window stays at block (0, 0). -/
private theorem index3 (a : (pcfg0 (F := Ideal)).Adm) : ∀ t : Fin (cfg0 a).N, ((cfg0 a).win 3).index t = ![0, 0] :=
  (by decide +kernel : ∀ t : Fin grid0.N, cc0_transform_3 (grid0.coords t) = ![0, 0])
/-- The second weight window stays at block (0, 0). -/
private theorem index4 (a : (pcfg0 (F := Ideal)).Adm) : ∀ t : Fin (cfg0 a).N, ((cfg0 a).win 4).index t = ![0, 0] :=
  (by decide +kernel : ∀ t : Fin grid0.N, cc0_transform_4 (grid0.coords t) = ![0, 0])
/-- The third weight window stays at block 0. -/
private theorem index5 (a : (pcfg0 (F := Ideal)).Adm) : ∀ t : Fin (cfg0 a).N, ((cfg0 a).win 5).index t = ![0] :=
  (by decide +kernel : ∀ t : Fin grid0.N, cc0_transform_5 (grid0.coords t) = ![0])
/-- The values window is at block (t, 0, 0) at point t. -/
private theorem index6 (a : (pcfg0 (F := Ideal)).Adm) : ∀ t : Fin (cfg0 a).N, ((cfg0 a).win 6).index t = ![t.val, 0, 0] :=
  (by decide +kernel : ∀ t : Fin grid0.N, cc0_transform_6 (grid0.coords t) = ![t.val, 0, 0])
/-- The offset of the key-length word read at point t is t. -/
private theorem lenOff : ∀ t : Fin grid0.N, k0_off1 (grid0.coords t) (0 : Fin 1) = t.val := by decide +kernel

/-! ## The blocks read at an index

A block is a unit-stride rectangle of its array: coordinate a of the block's entry y sits at array coordinate
(block index a) × (block size a) + 1 × (y a). With the block index known, every coordinate is an identity of naturals. -/

theorem keysBlk_apply (c : Dev nD) (t : Fin (cfgM m hO).N) (p : Fin 2048) (d : Fin 512) :
    (iblk m hO c 0 t : Vec Ideal S1x2048x512 .f32) (ix3 (0 : Fin 1) p d)
      = (V m c main_arg1 : S64x2048x512.Idx → EReal) (ix3 (row m hO t) p d) := by
  refine (View.read_apply (Val := Elt Ideal) _ _).trans ?_
  refine congrArg (V m c main_arg1 : S64x2048x512.Idx → EReal) ?_
  funext (a : Fin 3)
  apply Fin.ext
  match a with
  | ⟨0, _⟩ =>
    show ((cfgM m hO).win 0).index t (0 : Fin 3) * 1 + 1 * 0 = t.val
    rw [index0]; simp
  | ⟨1, _⟩ =>
    show ((cfgM m hO).win 0).index t (1 : Fin 3) * 2048 + 1 * p.val = p.val
    rw [index0]; simp
  | ⟨2, _⟩ =>
    show ((cfgM m hO).win 0).index t (2 : Fin 3) * 512 + 1 * d.val = d.val
    rw [index0]; simp

theorem coverBlk_apply (c : Dev nD) (t : Fin (cfgM m hO).N) (p : Fin 2048) :
    (iblk m hO c 1 t : Vec Ideal S1x1x2048 .f32) (ix3 (0 : Fin 1) (0 : Fin 1) p)
      = (V m c main_v5 : S64x1x2048.Idx → EReal) (ix3 (row m hO t) (0 : Fin 1) p) := by
  refine (View.read_apply (Val := Elt Ideal) _ _).trans ?_
  refine congrArg (V m c main_v5 : S64x1x2048.Idx → EReal) ?_
  funext (a : Fin 3)
  apply Fin.ext
  match a with
  | ⟨0, _⟩ =>
    show ((cfgM m hO).win 1).index t (0 : Fin 3) * 1 + 1 * 0 = t.val
    rw [index1]; simp
  | ⟨1, _⟩ =>
    show ((cfgM m hO).win 1).index t (1 : Fin 3) * 1 + 1 * 0 = 0
    rw [index1]; simp
  | ⟨2, _⟩ =>
    show ((cfgM m hO).win 1).index t (2 : Fin 3) * 2048 + 1 * p.val = p.val
    rw [index1]; simp

theorem queryBlk_apply (c : Dev nD) (t : Fin (cfgM m hO).N) (a : Fin 512) :
    (iblk m hO c 2 t : Vec Ideal S1x1x512 .f32) (ix3 (0 : Fin 1) (0 : Fin 1) a)
      = (V m c main_v4 : S64x1x512.Idx → EReal) (ix3 (row m hO t) (0 : Fin 1) a) := by
  refine (View.read_apply (Val := Elt Ideal) _ _).trans ?_
  refine congrArg (V m c main_v4 : S64x1x512.Idx → EReal) ?_
  funext (b : Fin 3)
  apply Fin.ext
  match b with
  | ⟨0, _⟩ =>
    show ((cfgM m hO).win 2).index t (0 : Fin 3) * 1 + 1 * 0 = t.val
    rw [index2]; simp
  | ⟨1, _⟩ =>
    show ((cfgM m hO).win 2).index t (1 : Fin 3) * 1 + 1 * 0 = 0
    rw [index2]; simp
  | ⟨2, _⟩ =>
    show ((cfgM m hO).win 2).index t (2 : Fin 3) * 512 + 1 * a.val = a.val
    rw [index2]; simp

theorem wkBlk_apply (c : Dev nD) (t : Fin (cfgM m hO).N) (d a : Fin 512) :
    (iblk m hO c 3 t : Vec Ideal S512x512 .bf16) (ix2 d a) = (V m c main_v7 : S512x512.Idx → EReal) (ix2 d a) := by
  refine (View.read_apply (Val := Elt Ideal) _ _).trans ?_
  refine congrArg (V m c main_v7 : S512x512.Idx → EReal) ?_
  funext (b : Fin 2)
  apply Fin.ext
  match b with
  | ⟨0, _⟩ =>
    show ((cfgM m hO).win 3).index t (0 : Fin 2) * 512 + 1 * d.val = d.val
    rw [index3]; simp
  | ⟨1, _⟩ =>
    show ((cfgM m hO).win 3).index t (1 : Fin 2) * 512 + 1 * a.val = a.val
    rw [index3]; simp

theorem woBlk_apply (c : Dev nD) (t : Fin (cfgM m hO).N) (a : Fin 512) :
    (iblk m hO c 4 t : Vec Ideal S1x512 .bf16) (ix2 (0 : Fin 1) a) = (V m c main_v10 : S1x512.Idx → EReal) (ix2 (0 : Fin 1) a) := by
  refine (View.read_apply (Val := Elt Ideal) _ _).trans ?_
  refine congrArg (V m c main_v10 : S1x512.Idx → EReal) ?_
  funext (b : Fin 2)
  apply Fin.ext
  match b with
  | ⟨0, _⟩ =>
    show ((cfgM m hO).win 4).index t (0 : Fin 2) * 1 + 1 * 0 = 0
    rw [index4]; simp
  | ⟨1, _⟩ =>
    show ((cfgM m hO).win 4).index t (1 : Fin 2) * 512 + 1 * a.val = a.val
    rw [index4]; simp

theorem wcBlk_apply (c : Dev nD) (t : Fin (cfgM m hO).N) (a : Fin 512) :
    (iblk m hO c 5 t : Vec Ideal S512 .f32) (ix1 a) = (V m c main_v6 : S512.Idx → EReal) (ix1 a) := by
  refine (View.read_apply (Val := Elt Ideal) _ _).trans ?_
  refine congrArg (V m c main_v6 : S512.Idx → EReal) ?_
  funext (b : Fin 1)
  apply Fin.ext
  match b with
  | ⟨0, _⟩ =>
    show ((cfgM m hO).win 5).index t (0 : Fin 1) * 512 + 1 * a.val = a.val
    rw [index5]; simp

theorem valueBlk_apply (c : Dev nD) (t : Fin (cfgM m hO).N) (p : Fin 2048) (d : Fin 512) :
    (iblk m hO c 6 t : Vec Ideal S1x2048x512 .f32) (ix3 (0 : Fin 1) p d)
      = (V m c main_arg2 : S64x2048x512.Idx → EReal) (ix3 (row m hO t) p d) := by
  refine (View.read_apply (Val := Elt Ideal) _ _).trans ?_
  refine congrArg (V m c main_arg2 : S64x2048x512.Idx → EReal) ?_
  funext (a : Fin 3)
  apply Fin.ext
  match a with
  | ⟨0, _⟩ =>
    show ((cfgM m hO).win 6).index t (0 : Fin 3) * 1 + 1 * 0 = t.val
    rw [index6]; simp
  | ⟨1, _⟩ =>
    show ((cfgM m hO).win 6).index t (1 : Fin 3) * 2048 + 1 * p.val = p.val
    rw [index6]; simp
  | ⟨2, _⟩ =>
    show ((cfgM m hO).win 6).index t (2 : Fin 3) * 512 + 1 * d.val = d.val
    rw [index6]; simp

/-- The key-length word read at point t is the key length of batch row t. -/
theorem lenWord_eq (c : Dev nD) (t : Fin (cfgM m hO).N) :
    Cert.KernelIdeal.Block.lenWord (F := Ideal) c (grid0.coords t) (tbl m 0)
      = (m ((c.tc : Thread nD τ).loc main_arg4) : S64.Idx → BitVec 32) (ix1 (row m hO t)) := by
  -- one device; the table is the key-length array as the region finds it, which no earlier host line writes
  obtain rfl : c = 0 := Subsingleton.elim _ _
  rw [← V_main_arg4 m 0]
  -- the word is the table at the one-word rectangle's first index: offset + 1 × 0, through the whole array's identity view
  show (V m 0 main_arg4 : S64.Idx → BitVec 32) _ = (V m 0 main_arg4 : S64.Idx → BitVec 32) _
  congr 1
  funext (b : Fin 1)
  apply Fin.ext
  match b with
  | ⟨0, _⟩ =>
    show k0_off1 (grid0.coords t) (0 : Fin 1) + 1 * 0 = t.val
    rw [lenOff]; simp

end Cert.KernelIdeal.Windows

end
-- ==== Proof.KernelOutWindows.lean ====
/-
  The two output windows: point t's block of the weights array [64,1,2048] and of the context array [64,1,512] is
  batch row t, and the 64 blocks cover each array.
-/
import proofs.«430874_j78606491452122_3_alg».proof.Proof.Gen.KernelIdeal.Frame
import Idealize.ShloMosaic.Lib.ValueIdx
import Idealize.ShloMosaic.Lib.Pipeline.Value

set_option maxRecDepth 16384

noncomputable section

namespace Cert.KernelIdeal.OutWindows

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (hO : Ok m)

/-- The printed index maps of the two output windows, decided over the grid: point t's block index is (t, 0, 0). -/
private theorem index8 (a : (pcfg0 (F := Ideal)).Adm) :
    ∀ t : Fin (cfg0 a).N, ((cfg0 a).win 8).index t = ![t.val, 0, 0] :=
  (by decide +kernel : ∀ t : Fin grid0.N, cc0_transform_8 (grid0.coords t) = ![t.val, 0, 0])
private theorem index7 (a : (pcfg0 (F := Ideal)).Adm) :
    ∀ t : Fin (cfg0 a).N, ((cfg0 a).win 7).index t = ![t.val, 0, 0] :=
  (by decide +kernel : ∀ t : Fin grid0.N, cc0_transform_7 (grid0.coords t) = ![t.val, 0, 0])

/-- Membership in equal sets. -/
private theorem mem_congr_set {α : Type} {s s' : Finset α} (h : s = s') (i : α) : i ∈ s ↔ i ∈ s' := h ▸ Iff.rfl

/-- An index of the array is in point t's block iff each coordinate is in the block's range on its axis. -/
private theorem mem_blk8 (t : Fin (cfgM m hO).N) (i : S64x1x2048.Idx) :
    i ∈ (((cfgM m hO).win 8).blk t).view.set ↔ ∀ a : Fin 3, ((cfgM m hO).win 8).index t a * S1x1x2048.size a ≤ (i a).val
      ∧ (i a).val < ((cfgM m hO).win 8).index t a * S1x1x2048.size a + S1x1x2048.size a := by
  exact (mem_congr_set (View.set_slice_whole main_v11_1 (((cfgM m hO).win 8).rect t)) i).trans Rect.mem_set_unit
private theorem mem_blk7 (t : Fin (cfgM m hO).N) (i : S64x1x512.Idx) :
    i ∈ (((cfgM m hO).win 7).blk t).view.set ↔ ∀ a : Fin 3, ((cfgM m hO).win 7).index t a * S1x1x512.size a ≤ (i a).val
      ∧ (i a).val < ((cfgM m hO).win 7).index t a * S1x1x512.size a + S1x1x512.size a := by
  exact (mem_congr_set (View.set_slice_whole main_v11_0 (((cfgM m hO).win 7).rect t)) i).trans Rect.mem_set_unit

/-- An index of a [1,1,n] block is (0, 0, its last coordinate). -/
theorem unit_idx2048 (y : S1x1x2048.Idx) : y = ix3 (0 : Fin 1) (0 : Fin 1) (y 2) := by
  funext a
  match a with
  | ⟨0, _⟩ => exact Fin.ext (by show (y 0).val = 0; have h : (y 0).val < 1 := (y 0).isLt; omega)
  | ⟨1, _⟩ => exact Fin.ext (by show (y 1).val = 0; have h : (y 1).val < 1 := (y 1).isLt; omega)
  | ⟨2, _⟩ => rfl
theorem unit_idx512 (y : S1x1x512.Idx) : y = ix3 (0 : Fin 1) (0 : Fin 1) (y 2) := by
  funext a
  match a with
  | ⟨0, _⟩ => exact Fin.ext (by show (y 0).val = 0; have h : (y 0).val < 1 := (y 0).isLt; omega)
  | ⟨1, _⟩ => exact Fin.ext (by show (y 1).val = 0; have h : (y 1).val < 1 := (y 1).isLt; omega)
  | ⟨2, _⟩ => rfl

/-- Point t's block of the weights array, read back, is batch row t of the array. -/
theorem attnBlk_read (G : S64x1x2048.Idx → EReal) (t : Fin (cfgM m hO).N) (y : S1x1x2048.Idx) :
    (((cfgM m hO).win 8).blk t).view.read (Elt Ideal) G y = G (ix3 (⟨t.val, t.isLt⟩ : Fin 64) (0 : Fin 1) (y 2)) := by
  refine ((View.read_apply _ _).trans (cast_eq _ _)).trans (congrArg G (funext fun a => Fin.ext ?_))
  have e := index8 (adm m hO) t
  have e0 : ((cfgM m hO).win 8).index t (0 : Fin 3) = t.val := congrFun e (0 : Fin 3)
  have e1 : ((cfgM m hO).win 8).index t (1 : Fin 3) = 0 := congrFun e (1 : Fin 3)
  have e2 : ((cfgM m hO).win 8).index t (2 : Fin 3) = 0 := congrFun e (2 : Fin 3)
  have h0 : (y 0).val < 1 := (y 0).isLt
  have h1 : (y 1).val < 1 := (y 1).isLt
  match a with
  | ⟨0, _⟩ => show ((cfgM m hO).win 8).index t (0 : Fin 3) * 1 + 1 * (y 0).val = t.val; omega
  | ⟨1, _⟩ => show ((cfgM m hO).win 8).index t (1 : Fin 3) * 1 + 1 * (y 1).val = 0; omega
  | ⟨2, _⟩ => show ((cfgM m hO).win 8).index t (2 : Fin 3) * 2048 + 1 * (y 2).val = (y 2).val; omega

/-- Point t's block of the context array, read back, is batch row t of the array. -/
theorem ctxBlk_read (G : S64x1x512.Idx → EReal) (t : Fin (cfgM m hO).N) (y : S1x1x512.Idx) :
    (((cfgM m hO).win 7).blk t).view.read (Elt Ideal) G y = G (ix3 (⟨t.val, t.isLt⟩ : Fin 64) (0 : Fin 1) (y 2)) := by
  refine ((View.read_apply _ _).trans (cast_eq _ _)).trans (congrArg G (funext fun a => Fin.ext ?_))
  have e := index7 (adm m hO) t
  have e0 : ((cfgM m hO).win 7).index t (0 : Fin 3) = t.val := congrFun e (0 : Fin 3)
  have e1 : ((cfgM m hO).win 7).index t (1 : Fin 3) = 0 := congrFun e (1 : Fin 3)
  have e2 : ((cfgM m hO).win 7).index t (2 : Fin 3) = 0 := congrFun e (2 : Fin 3)
  have h0 : (y 0).val < 1 := (y 0).isLt
  have h1 : (y 1).val < 1 := (y 1).isLt
  match a with
  | ⟨0, _⟩ => show ((cfgM m hO).win 7).index t (0 : Fin 3) * 1 + 1 * (y 0).val = t.val; omega
  | ⟨1, _⟩ => show ((cfgM m hO).win 7).index t (1 : Fin 3) * 1 + 1 * (y 1).val = 0; omega
  | ⟨2, _⟩ => show ((cfgM m hO).win 7).index t (2 : Fin 3) * 512 + 1 * (y 2).val = (y 2).val; omega

/-- Every index of the weights array lies in the block of some point that writes back. -/
theorem attn_cover (i : S64x1x2048.Idx) :
    ∃ t : Fin (cfgM m hO).N, ((cfgM m hO).win 8).flush t = true ∧ i ∈ (((cfgM m hO).win 8).blk t).view.set := by
  have hi0 : (i 0).val < 64 := (i 0).isLt
  have hi1 : (i 1).val < 1 := (i 1).isLt
  have hi2 : (i 2).val < 2048 := (i 2).isLt
  obtain ⟨t, ht⟩ : ∃ t : Fin (cfgM m hO).N, t.val = (i 0).val := ⟨⟨(i 0).val, hi0⟩, rfl⟩
  have e := index8 (adm m hO) t
  have e0 : ((cfgM m hO).win 8).index t (0 : Fin 3) = t.val := congrFun e (0 : Fin 3)
  have e1 : ((cfgM m hO).win 8).index t (1 : Fin 3) = 0 := congrFun e (1 : Fin 3)
  have e2 : ((cfgM m hO).win 8).index t (2 : Fin 3) = 0 := congrFun e (2 : Fin 3)
  refine ⟨t, Gen.flush0_8 (adm m hO) t, ?_⟩
  rw [mem_blk8]
  intro a
  match a with
  | ⟨0, _⟩ =>
    show ((cfgM m hO).win 8).index t (0 : Fin 3) * 1 ≤ (i 0).val ∧ (i 0).val < ((cfgM m hO).win 8).index t (0 : Fin 3) * 1 + 1
    omega
  | ⟨1, _⟩ =>
    show ((cfgM m hO).win 8).index t (1 : Fin 3) * 1 ≤ (i 1).val ∧ (i 1).val < ((cfgM m hO).win 8).index t (1 : Fin 3) * 1 + 1
    omega
  | ⟨2, _⟩ =>
    show ((cfgM m hO).win 8).index t (2 : Fin 3) * 2048 ≤ (i 2).val ∧ (i 2).val < ((cfgM m hO).win 8).index t (2 : Fin 3) * 2048 + 2048
    omega

/-- Every index of the context array lies in the block of some point that writes back. -/
theorem ctx_cover (i : S64x1x512.Idx) :
    ∃ t : Fin (cfgM m hO).N, ((cfgM m hO).win 7).flush t = true ∧ i ∈ (((cfgM m hO).win 7).blk t).view.set := by
  have hi0 : (i 0).val < 64 := (i 0).isLt
  have hi1 : (i 1).val < 1 := (i 1).isLt
  have hi2 : (i 2).val < 512 := (i 2).isLt
  obtain ⟨t, ht⟩ : ∃ t : Fin (cfgM m hO).N, t.val = (i 0).val := ⟨⟨(i 0).val, hi0⟩, rfl⟩
  have e := index7 (adm m hO) t
  have e0 : ((cfgM m hO).win 7).index t (0 : Fin 3) = t.val := congrFun e (0 : Fin 3)
  have e1 : ((cfgM m hO).win 7).index t (1 : Fin 3) = 0 := congrFun e (1 : Fin 3)
  have e2 : ((cfgM m hO).win 7).index t (2 : Fin 3) = 0 := congrFun e (2 : Fin 3)
  refine ⟨t, Gen.flush0_7 (adm m hO) t, ?_⟩
  rw [mem_blk7]
  intro a
  match a with
  | ⟨0, _⟩ =>
    show ((cfgM m hO).win 7).index t (0 : Fin 3) * 1 ≤ (i 0).val ∧ (i 0).val < ((cfgM m hO).win 7).index t (0 : Fin 3) * 1 + 1
    omega
  | ⟨1, _⟩ =>
    show ((cfgM m hO).win 7).index t (1 : Fin 3) * 1 ≤ (i 1).val ∧ (i 1).val < ((cfgM m hO).win 7).index t (1 : Fin 3) * 1 + 1
    omega
  | ⟨2, _⟩ =>
    show ((cfgM m hO).win 7).index t (2 : Fin 3) * 512 ≤ (i 2).val ∧ (i 2).val < ((cfgM m hO).win 7).index t (2 : Fin 3) * 512 + 512
    omega

end Cert.KernelIdeal.OutWindows

end
-- ==== Proof.KernelHost.lean ====
/-
  What the region finds in the five arrays the host prepares before it, read at an index: the coverage viewed
  [64,1,2048], the projected query viewed [64,1,512], the key weights (a change of float format: the identity on
  the extended reals), the output weights as a row [1,512], and the coverage weights as a vector [512].
-/
import proofs.«430874_j78606491452122_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The query projection q = query · Wq + bq as the kernel's host side computes it, a [64,512] array. -/
def qproj (c : Dev nD) : FVec Ideal S64x512 .f32 :=
  addf (Host.dotGeneral (F := Ideal) (φ₁ := .f32) (φ₂ := .f32) dot_S64x512_S512x512_S64x512_1_0_0_1_n_n none
      (m ((c.tc : Thread nD τ).loc main_arg0)) (m ((c.tc : Thread nD τ).loc main_arg5)))
    (broadcastInDim S64x512 ![0, 1] bcast_S1x512_S64x512_0_1
      (broadcastInDim S1x512 ![1] bcast_S512_S1x512_1 (m ((c.tc : Thread nD τ).loc main_arg6) : FVec Ideal S512 .f32)))

theorem V_cover3 (c : Dev nD) (b : Fin 64) (t : Fin 2048) :
    (V m c main_v5 : S64x1x2048.Idx → EReal) (ix3 b (0 : Fin 1) t) = m ((c.tc : Thread nD τ).loc main_arg3) (ix2 b t) := by
  have e : (V m c main_v5 : S64x1x2048.Idx → EReal)
      = broadcastInDim S64x1x2048 ![0, 2] bcast_S64x2048_S64x1x2048_0_2
          (m ((c.tc : Thread nD τ).loc main_arg3) : FVec Ideal S64x2048 .f32) := by
    show StableHlo.after hostOps0 (fun b => m (c, b)) (Proc.devRef .tc main_v5) = _
    after_results
  refine (congrFun e _).trans ?_
  exact broadcastInDim_apply ![0, 2] bcast_S64x2048_S64x1x2048_0_2 _ (ix3 b (0 : Fin 1) t) (ix2 b t) (fun a =>
    match a with
    | ⟨0, _⟩ => rfl
    | ⟨1, _⟩ => rfl)

theorem V_q3 (c : Dev nD) (b : Fin 64) (a : Fin 512) :
    (V m c main_v4 : S64x1x512.Idx → EReal) (ix3 b (0 : Fin 1) a) = qproj m c (ix2 b a) := by
  have e : (V m c main_v4 : S64x1x512.Idx → EReal)
      = broadcastInDim S64x1x512 ![0, 2] bcast_S64x512_S64x1x512_0_2 (qproj m c) := by
    show StableHlo.after hostOps0 (fun b => m (c, b)) (Proc.devRef .tc main_v4) = _
    after_results
    rfl
  refine (congrFun e _).trans ?_
  exact broadcastInDim_apply ![0, 2] bcast_S64x512_S64x1x512_0_2 _ (ix3 b (0 : Fin 1) a) (ix2 b a) (fun k =>
    match k with
    | ⟨0, _⟩ => rfl
    | ⟨1, _⟩ => rfl)

theorem V_wk (c : Dev nD) (d a : Fin 512) :
    (V m c main_v7 : S512x512.Idx → EReal) (ix2 d a) = m ((c.tc : Thread nD τ).loc main_arg7) (ix2 d a) := by
  have e : (V m c main_v7 : S512x512.Idx → EReal)
      = truncf (F := Ideal) (s := S512x512) (φ := .f32) .bf16 (m ((c.tc : Thread nD τ).loc main_arg7)) bitsLt_bf16_f32 := by
    show StableHlo.after hostOps0 (fun b => m (c, b)) (Proc.devRef .tc main_v7) = _
    after_results
  exact (congrFun e _).trans rfl

theorem V_wo (c : Dev nD) (a : Fin 512) :
    (V m c main_v10 : S1x512.Idx → EReal) (ix2 (0 : Fin 1) a) = m ((c.tc : Thread nD τ).loc main_arg9) (ix2 a (0 : Fin 1)) := by
  have e : (V m c main_v10 : S1x512.Idx → EReal)
      = truncf (F := Ideal) (s := S1x512) (φ := .f32) .bf16 (broadcastInDim S1x512 ![1] bcast_S512_S1x512_1
          (shapeCast S512 (m ((c.tc : Thread nD τ).loc main_arg9) : FVec Ideal S512x1 .f32) shapeCasts_S512x1_S512)) bitsLt_bf16_f32 := by
    show StableHlo.after hostOps0 (fun b => m (c, b)) (Proc.devRef .tc main_v10) = _
    after_results
    rfl
  refine (congrFun e _).trans ?_
  refine (truncf_apply _ bitsLt_bf16_f32 _).trans ?_
  refine (broadcastInDim_apply ![1] bcast_S512_S1x512_1 _ (ix2 (0 : Fin 1) a) (ix1 a) (fun k =>
    match k with
    | ⟨0, _⟩ => rfl)).trans ?_
  exact shapeCast_apply _ shapeCasts_S512x1_S512 (ix1 a) (ix2 a (0 : Fin 1)) (by
    rw [Shape.rowMajor_val_two, Shape.rowMajor_val_one]
    show a.val * 1 + 0 = a.val
    omega)

theorem V_wc (c : Dev nD) (a : Fin 512) :
    (V m c main_v6 : S512.Idx → EReal) (ix1 a) = m ((c.tc : Thread nD τ).loc main_arg8) (ix2 (0 : Fin 1) a) := by
  have e : (V m c main_v6 : S512.Idx → EReal)
      = shapeCast S512 (m ((c.tc : Thread nD τ).loc main_arg8) : FVec Ideal S1x512 .f32) shapeCasts_S1x512_S512 := by
    show StableHlo.after hostOps0 (fun b => m (c, b)) (Proc.devRef .tc main_v6) = _
    after_results
    rfl
  refine (congrFun e _).trans ?_
  exact shapeCast_1a_a_apply _ shapeCasts_S1x512_S512 a

end Cert.KernelIdeal.HostSide

end
-- ==== Proof.KernelFinal.lean ====
/-
  The arrays the kernel's run leaves. Each grid point writes batch row t of the weights array and of the context
  array; the 64 rows cover both arrays; so the weights array ends holding, at (b, 0, t), the guarded softmax of batch
  row b's masked energies, and the context array, at (b, 0, d), the guarded weighted sum of row b's values; the line
  after the region views the context array as [64, 512].
-/
import proofs.«430874_j78606491452122_3_alg».proof.Proof.Gen.KernelIdeal.Frame
import proofs.«430874_j78606491452122_3_alg».proof.Proof.AttnSpec
import proofs.«430874_j78606491452122_3_alg».proof.Proof.KernelBlock
import proofs.«430874_j78606491452122_3_alg».proof.Proof.KernelRow
import proofs.«430874_j78606491452122_3_alg».proof.Proof.KernelWindows
import proofs.«430874_j78606491452122_3_alg».proof.Proof.KernelOutWindows
import proofs.«430874_j78606491452122_3_alg».proof.Proof.KernelHost
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Final

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg) (hO : Ok m)

/-- The masked energies of batch row b, and the row's values, from the kernel's arguments. -/
def rows (c : Dev nD) (b : Fin 64) : Fin 2048 → EReal :=
  Cert.Attn.rowEnergies (fun b t d => m ((c.tc : Thread nD τ).loc main_arg1) (ix3 b t d)) (fun d a => m ((c.tc : Thread nD τ).loc main_arg7) (ix2 d a))
    (fun b a => HostSide.qproj m c (ix2 b a)) (fun b t => m ((c.tc : Thread nD τ).loc main_arg3) (ix2 b t)) (fun a => m ((c.tc : Thread nD τ).loc main_arg8) (ix2 (0 : Fin 1) a))
    (fun a => m ((c.tc : Thread nD τ).loc main_arg9) (ix2 a (0 : Fin 1))) (fun b => m ((c.tc : Thread nD τ).loc main_arg4) (ix1 b)) b
def vals (c : Dev nD) (b : Fin 64) : Fin 2048 → Fin 512 → EReal := fun t d => m ((c.tc : Thread nD τ).loc main_arg2) (ix3 b t d)

/-- The two arrays, in the guarded spelling. -/
def attnArr (c : Dev nD) : S64x1x2048.Idx → EReal := fun i => Cert.Attn.attnGuard (rows m c (i 0)) (i 2)
def ctxArr (c : Dev nD) : S64x1x512.Idx → EReal := fun i => Cert.Attn.ctxGuard (rows m c (i 0)) (vals m c (i 0)) (i 2)

/-! ## One grid point -/

/-- The row of masked energies a point computes from its blocks is that of its batch row. -/
theorem xrow_eq (c : Dev nD) (t : Fin (cfgM m hO).N) :
    Row.xrow (iblk m hO c 0 t) (iblk m hO c 1 t) (iblk m hO c 2 t) (iblk m hO c 3 t) (iblk m hO c 4 t) (iblk m hO c 5 t)
        (Block.lenWord (F := Ideal) c (grid0.coords t) (tbl m 0))
      = rows m c (Windows.row m hO t) := by
  unfold rows Cert.Attn.rowEnergies
  show Cert.Attn.masked (fun p => Cert.Attn.energy (fun a => (iblk m hO c 4 t : Vec Ideal S1x512 .bf16) (ix2 (0 : Fin 1) a))
      (Cert.Attn.score (fun d => (iblk m hO c 0 t : Vec Ideal S1x2048x512 .f32) (ix3 (0 : Fin 1) p d)) (fun d a => (iblk m hO c 3 t : Vec Ideal S512x512 .bf16) (ix2 d a))
        (fun a => (iblk m hO c 2 t : Vec Ideal S1x1x512 .f32) (ix3 (0 : Fin 1) (0 : Fin 1) a)) ((iblk m hO c 1 t : Vec Ideal S1x1x2048 .f32) (ix3 (0 : Fin 1) (0 : Fin 1) p))
        (fun a => (iblk m hO c 5 t : Vec Ideal S512 .f32) (ix1 a)))) _ = _
  simp only [Windows.keysBlk_apply, Windows.coverBlk_apply, Windows.queryBlk_apply, Windows.wkBlk_apply, Windows.woBlk_apply,
    Windows.wcBlk_apply, Windows.lenWord_eq]
  have hWO : (fun a : Fin 512 => (V m c main_v10 : S1x512.Idx → EReal) (ix2 (0 : Fin 1) a)) = fun a => m ((c.tc : Thread nD τ).loc main_arg9) (ix2 a (0 : Fin 1)) :=
    funext (HostSide.V_wo m c)
  have hWK : (fun d a : Fin 512 => (V m c main_v7 : S512x512.Idx → EReal) (ix2 d a)) = fun d a => m ((c.tc : Thread nD τ).loc main_arg7) (ix2 d a) :=
    funext fun d => funext fun a => HostSide.V_wk m c d a
  have hQ : (fun a : Fin 512 => (V m c main_v4 : S64x1x512.Idx → EReal) (ix3 (Windows.row m hO t) (0 : Fin 1) a)) = fun a => HostSide.qproj m c (ix2 (Windows.row m hO t) a) :=
    funext (HostSide.V_q3 m c (Windows.row m hO t))
  have hWC : (fun a : Fin 512 => (V m c main_v6 : S512.Idx → EReal) (ix1 a)) = fun a => m ((c.tc : Thread nD τ).loc main_arg8) (ix2 (0 : Fin 1) a) :=
    funext (HostSide.V_wc m c)
  have hK : ∀ p : Fin 2048, (fun d : Fin 512 => (V m c main_arg1 : S64x2048x512.Idx → EReal) (ix3 (Windows.row m hO t) p d)) = fun d => m ((c.tc : Thread nD τ).loc main_arg1) (ix3 (Windows.row m hO t) p d) :=
    fun p => funext fun d => congrFun (V_main_arg1 m c) _
  refine congrArg (fun f => Cert.Attn.masked f _) (funext fun p => ?_)
  rw [hWO, hWK, hQ, hWC, hK p, HostSide.V_cover3 m c (Windows.row m hO t) p]

/-- The shifted exponentials a point computes are those of its batch row. -/
theorem expAt (c : Dev nD) (t : Fin (cfgM m hO).N) (q : Fin 2048) :
    Block.expRow c (grid0.coords t) (iblk m hO c 0 t) (iblk m hO c 1 t) (iblk m hO c 2 t) (iblk m hO c 3 t) (iblk m hO c 4 t) (iblk m hO c 5 t) (tbl m 0) (ix2 (0 : Fin 1) q)
      = Cert.Attn.expShift (rows m c (Windows.row m hO t)) q :=
  (Row.pay4_apply (iblk m hO c 0 t) (iblk m hO c 1 t) (iblk m hO c 2 t) (iblk m hO c 3 t) (iblk m hO c 4 t) (iblk m hO c 5 t)
      (Block.lenWord (F := Ideal) c (grid0.coords t) (tbl m 0)) q).trans
    (congrArg (fun x => Cert.Attn.expShift x q) (xrow_eq m hO c t))

/-- What point t leaves in the weights block. -/
theorem attnOut_apply (c : Dev nD) (t : Fin (cfgM m hO).N) (p : Fin 2048) :
    (outsAt0 m hO c t).2 (ix3 (0 : Fin 1) (0 : Fin 1) p) = Cert.Attn.attnGuard (rows m c (Windows.row m hO t)) p := by
  unfold outsAt0
  dsimp only
  rw [Block.attnBlock_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (tbl m 0)]
  rw [Row.pay2_apply]
  unfold Cert.Attn.attnGuard Cert.Attn.denom
  simp only [expAt m hO c t]

/-- What point t leaves in the context block. -/
theorem ctxOut_apply (c : Dev nD) (t : Fin (cfgM m hO).N) (d : Fin 512) :
    (outsAt0 m hO c t).1 (ix3 (0 : Fin 1) (0 : Fin 1) d) = Cert.Attn.ctxGuard (rows m c (Windows.row m hO t)) (vals m c (Windows.row m hO t)) d := by
  unfold outsAt0
  dsimp only
  rw [Block.ctxBlock_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (tbl m 0)]
  refine (Row.pay3_apply (Block.expRow c (grid0.coords t) (iblk m hO c 0 t) (iblk m hO c 1 t) (iblk m hO c 2 t) (iblk m hO c 3 t) (iblk m hO c 4 t) (iblk m hO c 5 t) (tbl m 0)) (iblk m hO c 6 t) d).trans ?_
  unfold Cert.Attn.ctxGuard Cert.Attn.denom vals
  have hV : ∀ q : Fin 2048, (iblk m hO c 6 t : Vec Ideal S1x2048x512 .f32) (ix3 (0 : Fin 1) q d) = m ((c.tc : Thread nD τ).loc main_arg2) (ix3 (Windows.row m hO t) q d) :=
    fun q => (Windows.valueBlk_apply m hO c t q d).trans (congrFun (V_main_arg2 m c) _)
  simp only [expAt m hO c t, hV]

/-! ## The arrays after the last point -/

/-- At one point: the weights block read at an index of the block. -/
theorem attn_pt (c : Dev nD) (t : Fin (cfgM m hO).N) (y : S1x1x2048.Idx) :
    (outsAt0 m hO c t).2 y = (((cfgM m hO).win 8).blk t).view.read (Elt Ideal) (attnArr m c) y := by
  refine Eq.trans ?_ (OutWindows.attnBlk_read m hO (attnArr m c) t y).symm
  exact (congrArg (outsAt0 m hO c t).2 (OutWindows.unit_idx2048 y)).trans (attnOut_apply m hO c t (y 2))

/-- At one point: the context block read at an index of the block. -/
theorem ctx_pt (c : Dev nD) (t : Fin (cfgM m hO).N) (y : S1x1x512.Idx) :
    (outsAt0 m hO c t).1 y = (((cfgM m hO).win 7).blk t).view.read (Elt Ideal) (ctxArr m c) y := by
  refine Eq.trans ?_ (OutWindows.ctxBlk_read m hO (ctxArr m c) t y).symm
  exact (congrArg (outsAt0 m hO c t).1 (OutWindows.unit_idx512 y)).trans (ctxOut_apply m hO c t (y 2))

theorem attn_flushed (c : Dev nD) (t : Fin (cfgM m hO).N) (_ : ((cfgM m hO).win 8).flush t = true) :
    (dats m hO 0 c).flushed 8 t = (((cfgM m hO).win 8).blk t).view.read (Elt Ideal) (attnArr m c) := by
  show ((cfgM m hO).win 8).cut (grid0.coords t) ((dats m hO 0 c).after 8 t) = _
  rw [after0_8]
  funext y
  exact attn_pt m hO c t y

theorem ctx_flushed (c : Dev nD) (t : Fin (cfgM m hO).N) (_ : ((cfgM m hO).win 7).flush t = true) :
    (dats m hO 0 c).flushed 7 t = (((cfgM m hO).win 7).blk t).view.read (Elt Ideal) (ctxArr m c) := by
  show ((cfgM m hO).win 7).cut (grid0.coords t) ((dats m hO 0 c).after 7 t) = _
  rw [after0_7]
  funext y
  exact ctx_pt m hO c t y

theorem attn_final (c : Dev nD) : (dats m hO 0 c).arrAt 8 (cfgM m hO).N = attnArr m c :=
  (dats m hO 0 c).arrAt_eq_of_cover 8 (attnArr m c) (attn_flushed m hO c) (OutWindows.attn_cover m hO)

theorem ctx_final (c : Dev nD) : (dats m hO 0 c).arrAt 7 (cfgM m hO).N = ctxArr m c :=
  (dats m hO 0 c).arrAt_eq_of_cover 7 (ctxArr m c) (ctx_flushed m hO c) (OutWindows.ctx_cover m hO)

end Cert.KernelIdeal.Final

end
-- ==== Proof.KernelRun.lean ====
/-
  The kernel's run, with its two results named: the context array viewed [64,512] and the weights array, in the
  guarded spelling, and the ten arguments unchanged.
-/
import proofs.«430874_j78606491452122_3_alg».proof.Proof.KernelFinal

set_option maxRecDepth 16384

noncomputable section

namespace Cert.KernelIdeal.Final

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg) (hO : Ok m)

/-- The line after the region views the context array [64,1,512] as [64,512]. -/
theorem ctx_tail (c : Dev nD) :
    Pipeline.afterTail pcfgs (fun _ => adm m hO) (dats m hO) 0 (V0 m) [hostOps1] c main_v12
      = shapeCast S64x512 (ctxArr m c) shapeCasts_S64x1x512_S64x512 := by
  unfold Pipeline.afterTail
  show StableHlo.after hostOps1 _ (Proc.devRef .tc main_v12) = _
  after_results
  have e : Pipeline.withArrays (Pipeline.pin pcfgs (fun _ => adm m hO) 0).spec c (V0 m c)
      (fun w => (dats m hO 0 c).arrAt w (Pipeline.pin pcfgs (fun _ => adm m hO) 0).N) (Proc.devRef .tc main_v11_0)
      = (dats m hO 0 c).arrAt 7 (cfgM m hO).N :=
    Pipeline.withArrays_arr spec0 (launch0 (F := Ideal)).win.arr_inj c _ _ 7
  rw [e, ctx_final]
  rfl

/-- The [64,512] view at (b, d) is the [64,1,512] array at (b, 0, d): same row-major position. -/
theorem ctx_view (G : S64x1x512.Idx → EReal) (b : Fin 64) (d : Fin 512) :
    shapeCast S64x512 G shapeCasts_S64x1x512_S64x512 (ix2 b d) = G (ix3 b (0 : Fin 1) d) :=
  shapeCast_apply G _ _ _ (by
    rw [Shape.rowMajor_val_three, Shape.rowMajor_val_two]
    show (b.val * 1 + 0) * 512 + d.val = b.val * 512 + d.val
    omega)

include hO in
/-- THE KERNEL'S RUN. -/
theorem run : θ_run defs (onTc (τ := τ) (main (F := Ideal))) ⟨m, fun _ => 0, ρ⟩ fun r => ∀ c : Dev nD,
      r.2.mem ((c.tc : Thread nD τ).loc main_v12) = shapeCast S64x512 (ctxArr m c) shapeCasts_S64x1x512_S64x512
      ∧ r.2.mem ((c.tc : Thread nD τ).loc main_v11_1) = attnArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).2 main_v12 (by decide : main_v12 ∈ Pipeline.restRefs sig spec0)).trans (ctx_tail m hO c),
      ((h c).1 8).trans (attn_final m hO c),
      ((h c).2 main_arg0 (by decide : main_arg0 ∈ Pipeline.restRefs sig spec0)).trans (W_main_arg0 m hO (dats m hO) c),
      ((h c).1 0).trans (((dats m hO 0 c).arrAt_in 0 rfl _).trans ((A_eq m hO c 0).trans (V_main_arg1 m c))),
      ((h c).1 6).trans (((dats m hO 0 c).arrAt_in 6 rfl _).trans ((A_eq m hO c 6).trans (V_main_arg2 m c))),
      ((h c).2 main_arg3 (by decide : main_arg3 ∈ Pipeline.restRefs sig spec0)).trans (W_main_arg3 m hO (dats m hO) c),
      ((h c).2 main_arg4 (by decide : main_arg4 ∈ Pipeline.restRefs sig spec0)).trans (W_main_arg4 m hO (dats m hO) c),
      ((h c).2 main_arg5 (by decide : main_arg5 ∈ Pipeline.restRefs sig spec0)).trans (W_main_arg5 m hO (dats m hO) c),
      ((h c).2 main_arg6 (by decide : main_arg6 ∈ Pipeline.restRefs sig spec0)).trans (W_main_arg6 m hO (dats m hO) c),
      ((h c).2 main_arg7 (by decide : main_arg7 ∈ Pipeline.restRefs sig spec0)).trans (W_main_arg7 m hO (dats m hO) c),
      ((h c).2 main_arg8 (by decide : main_arg8 ∈ Pipeline.restRefs sig spec0)).trans (W_main_arg8 m hO (dats m hO) c),
      ((h c).2 main_arg9 (by decide : main_arg9 ∈ Pipeline.restRefs sig spec0)).trans (W_main_arg9 m hO (dats m hO) c)⟩)
    (run_main m ρ hO)

end Cert.KernelIdeal.Final

end
-- ==== Proof.lean ====
/-
  Additive (Bahdanau) attention with a coverage term: the kernel against its jnp reference, over the extended reals.

  Both programs compute, for every batch row b, the masked energies
      x_b(t) = (t ≥ key_len[b] ? -10¹⁰ : Σ_a Wo[a] · tanh((keys[b,t,:] · Wk)[a] + q[b,a] + cover[b,t] · Wc[a])) · 1,
  with q = query · Wq + bq, then the softmax over t and the context Σ_t attn[b,t] · value[b,t,:].
  The reference divides the shifted exponentials p_t = exp(x_b(t) - max x_b) by their sum l and then averages the
  values; the kernel divides p_t, and the averaged values Σ_t p_t · value[b,t,:], by max(l, 10⁻³⁰) — the literal
  being the named constant 1/10³⁰ at the ideal instance. The two agree because under the precondition the output
  weights Wo and the values are real numbers: tanh is real everywhere, so every masked energy is real, the maximum is
  attained, its shifted exponential is 1, hence l ≥ 1 and the guard is idle; and dividing a finite sum of reals by a
  real not 0 is summing the divided terms. The sums q + k and k + q differ by commutativity only; changes of float
  format are the identity.

  Kernel side: the run leaves, per grid point (one per batch row), one store into each output block; the blocks
  cover the two output arrays (KernelBlock, KernelRow, KernelWindows, KernelOutWindows, KernelHost, KernelFinal,
  KernelRun). Reference side: its run read index by index (RefValue). The softmax tail's algebra is AttnSoftmax,
  the finiteness of Wo and of the values FiniteInputs. No index map of the kernel reads the prefetched key lengths,
  so the side condition of the kernel's frame is trivially true.
-/
import proofs.«430874_j78606491452122_3_alg».proof.Defs
import proofs.«430874_j78606491452122_3_alg».proof.Proof.Gen.Kernel
import proofs.«430874_j78606491452122_3_alg».proof.Proof.Gen.Kernel.Skeleton
import proofs.«430874_j78606491452122_3_alg».proof.Proof.Gen.Kernel.Launch
import proofs.«430874_j78606491452122_3_alg».proof.Proof.Gen.Kernel.Points
import proofs.«430874_j78606491452122_3_alg».proof.Proof.Gen.Kernel.Frame
import proofs.«430874_j78606491452122_3_alg».proof.Proof.Gen.KernelIdeal
import proofs.«430874_j78606491452122_3_alg».proof.Proof.Gen.KernelIdeal.Skeleton
import proofs.«430874_j78606491452122_3_alg».proof.Proof.Gen.KernelIdeal.Launch
import proofs.«430874_j78606491452122_3_alg».proof.Proof.Gen.KernelIdeal.Points
import proofs.«430874_j78606491452122_3_alg».proof.Proof.Gen.KernelIdeal.Frame
import proofs.«430874_j78606491452122_3_alg».proof.Proof.Gen.ReferenceIdeal
import proofs.«430874_j78606491452122_3_alg».proof.Proof.Gen.Pre_finite_inputs
import proofs.«430874_j78606491452122_3_alg».proof.Proof.Gen.ReferenceIdeal.Run
import proofs.«430874_j78606491452122_3_alg».proof.Proof.Gen.ReferenceIdeal.Read
import proofs.«430874_j78606491452122_3_alg».proof.Proof.AttnSpec
import proofs.«430874_j78606491452122_3_alg».proof.Proof.AttnSoftmax
import proofs.«430874_j78606491452122_3_alg».proof.Proof.FiniteInputs
import proofs.«430874_j78606491452122_3_alg».proof.Proof.RefValue
import proofs.«430874_j78606491452122_3_alg».proof.Proof.KernelRun
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The three frames and the idealization's ledger -/

theorem frame_kernel : Cert.frame_Kernel := fun m ρ _ => Cert.Kernel.Gen.frame m ρ True.intro
theorem frame_kernelIdeal : Cert.frame_KernelIdeal := fun m ρ _ => Cert.KernelIdeal.Gen.frame m ρ True.intro
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one ledger entry: the guard literal is named 1/10³⁰. -/
theorem preserves : Cert.preserves_Kernel_KernelIdeal :=
  IdealRules.named_const.statement Cert.KernelIdeal.κ "inv_1000000000000000000000000000000" .f32 0x0DA24260#32
    ((1 / 1000000000000000000000000000000 : ℝ) : EReal) rfl

/-! ## The kernel's two arrays in the plain spelling -/

section Plain

variable (m : (ℓ : Loc Cert.KernelIdeal.nD Cert.KernelIdeal.τ Cert.KernelIdeal.sig) → Buf (Elt Ideal) ℓ)

/-- Under the precondition every masked energy is a real number: Wo is finite and tanh is real everywhere. -/
theorem rows_real (h : Cert.Pre_KernelIdeal m) (c : Dev Cert.KernelIdeal.nD) (b : Fin 64) (t : Fin 2048) :
    ∃ r : ℝ, Cert.KernelIdeal.Final.rows m c b t = (r : EReal) := by
  unfold Cert.KernelIdeal.Final.rows Cert.Attn.rowEnergies
  exact Cert.Attn.masked_real _ _ (fun t => Cert.Attn.energy_real _ _ (fun a => Cert.KernelIdeal.Finite.wo_real m h c (ix2 a (0 : Fin 1)))) t

theorem vals_real (h : Cert.Pre_KernelIdeal m) (c : Dev Cert.KernelIdeal.nD) (b : Fin 64) (t : Fin 2048) (d : Fin 512) :
    ∃ r : ℝ, Cert.KernelIdeal.Final.vals m c b t d = (r : EReal) :=
  Cert.KernelIdeal.Finite.value_real m h c (ix3 b t d)

/-- The weights array is the plain softmax. -/
theorem attn_plain (h : Cert.Pre_KernelIdeal m) (c : Dev Cert.KernelIdeal.nD) (i : Cert.KernelIdeal.S64x1x2048.Idx) :
    Cert.KernelIdeal.Final.attnArr m c i = Cert.Attn.attn (Cert.KernelIdeal.Final.rows m c (i 0)) (i 2) :=
  Cert.Attn.attnGuard_eq _ (rows_real m h c (i 0)) (i 2)

/-- The context array, viewed [64,512], is the plain weighted sum of the values. -/
theorem ctx_plain (h : Cert.Pre_KernelIdeal m) (c : Dev Cert.KernelIdeal.nD) (b : Fin 64) (d : Fin 512) :
    shapeCast Cert.KernelIdeal.S64x512 (Cert.KernelIdeal.Final.ctxArr m c) Cert.KernelIdeal.Gen.shapeCasts_S64x1x512_S64x512 (ix2 b d)
      = Cert.Attn.ctx (Cert.KernelIdeal.Final.rows m c b) (Cert.KernelIdeal.Final.vals m c b) d := by
  rw [Cert.KernelIdeal.Final.ctx_view]
  exact Cert.Attn.ctxGuard_eq _ _ (rows_real m h c b) (vals_real m h c b) d

end Plain

/-! ## The reference's two results, index by index -/

section Ref

variable (m' : (ℓ : Loc Cert.ReferenceIdeal.nD Cert.ReferenceIdeal.τ Cert.ReferenceIdeal.sig) → Buf (Elt Ideal) ℓ) (c : Dev Cert.ReferenceIdeal.nD)

theorem ref_ctx (i : Cert.ReferenceIdeal.S64x512.Idx) :
    Cert.ReferenceIdeal.Value.res_main_v39 (F := Ideal) m' c i
      = Cert.Attn.ctx (Cert.ReferenceIdeal.RefValue.rows (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (i 0)) (fun t d => (m' ((c.tc : Thread Cert.ReferenceIdeal.nD Cert.ReferenceIdeal.τ).loc Cert.ReferenceIdeal.main_arg2)) (ix3 (i 0) t d)) (i 1) := by
  rw [Cert.ReferenceIdeal.Read.val_main_v39_eq]
  exact (congrArg (Cert.ReferenceIdeal.Read.val_main_v39 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))) (eq_ix2 i)).trans
    (Cert.ReferenceIdeal.RefValue.ctx_eq _ _ _ _ _ _ _ _ _ _ (i 0) (i 1))

theorem ref_attn (i : Cert.ReferenceIdeal.S64x1x2048.Idx) :
    Cert.ReferenceIdeal.Value.res_main_v37 (F := Ideal) m' c i = Cert.Attn.attn (Cert.ReferenceIdeal.RefValue.rows (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (i 0)) (i 2) := by
  have hi : i = ix3 (i 0) (0 : Fin 1) (i 2) := funext fun a => by
    match a with
    | ⟨0, _⟩ => rfl
    | ⟨1, _⟩ => exact Fin.ext (show (i 1).val = 0 from Nat.lt_one_iff.mp (i 1).isLt)
    | ⟨2, _⟩ => rfl
  rw [Cert.ReferenceIdeal.Read.val_main_v37_eq]
  exact (congrArg (Cert.ReferenceIdeal.Read.val_main_v37 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))) hi).trans
    (Cert.ReferenceIdeal.RefValue.attn_eq _ _ _ _ _ _ _ _ _ (i 0) (i 2))

end Ref

/-! ## The claim -/

theorem algebraic : Cert.algebraic_KernelIdeal_ReferenceIdeal := by
  intro m ρ m' ρ' hpre hagree
  refine ⟨fun c => fun i => Cert.Attn.ctx (Cert.KernelIdeal.Final.rows m c (i 0)) (Cert.KernelIdeal.Final.vals m c (i 0)) (i 1),
    fun c => fun i => Cert.Attn.attn (Cert.KernelIdeal.Final.rows m c (i 0)) (i 2), ?_, ?_⟩
  · refine (θ_run Cert.KernelIdeal.defs _ _).mono (fun _ h c => ?_) (Cert.KernelIdeal.Final.run m ρ True.intro)
    obtain ⟨h12, h11, hargs⟩ := h c
    refine ⟨h12.trans (funext fun i => ?_), h11.trans (funext fun i => attn_plain m hpre c i), hargs⟩
    rw [eq_ix2 i]
    exact ctx_plain m hpre c (i 0) (i 1)
  · refine (θ_run Cert.ReferenceIdeal.defs _ _).mono (fun _ h c => ?_) (Cert.ReferenceIdeal.Value.run (F := Ideal) m' ρ')
    obtain ⟨h39, h37, hargs⟩ := h c
    obtain ⟨a0, a1, a2, a3, a4, a5, a6, a7, a8, a9⟩ := hagree c
    have hrows : ∀ b : Fin 64, Cert.ReferenceIdeal.RefValue.rows (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) b = Cert.KernelIdeal.Final.rows m c b := by
      intro b
      unfold Cert.ReferenceIdeal.RefValue.rows Cert.KernelIdeal.Final.rows
      rw [a0, a1, a3, a4, a5, a6, a7, a8, a9]
      rfl
    refine ⟨h39.trans (funext fun i => ?_), h37.trans (funext fun i => ?_), hargs⟩
    · refine (ref_ctx m' c i).trans ?_
      exact congrArg₂ (fun x v => Cert.Attn.ctx x v (i 1)) (hrows (i 0)) (by rw [a2]; rfl)
    · refine (ref_attn m' c i).trans ?_
      exact congrArg (fun x => Cert.Attn.attn x (i 2)) (hrows (i 0))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
